-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x1024 : Shape := ⟨4, ![4, 16, 1024, 1024]⟩
abbrev S4x1x1024x1024 : Shape := ⟨4, ![4, 1, 1024, 1024]⟩
abbrev S_ : Shape := ⟨0, ![]⟩

class Facts : Prop where
  bcast_S_S4x16x1024x1024 : S_.BroadcastsInDim S4x16x1024x1024 (![] : Fin 0 → Fin S4x16x1024x1024.rank)
  reducesTo_S4x16x1024x1024_S_d0_1_2_3 : S4x16x1024x1024.ReducesTo [0, 1, 2, 3] S_
  h_S_ : 0 < S_.numel
  bcast_S_S4x1x1024x1024 : S_.BroadcastsInDim S4x1x1024x1024 (![] : Fin 0 → Fin S4x1x1024x1024.rank)
  reducesTo_S4x1x1024x1024_S_d0_1_2_3 : S4x1x1024x1024.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x16x1024x1024 .f32) (main_arg1 : FVec F S4x16x1024x1024 .f32) (main_arg2 : IVec S4x1x1024x1024 32) : IVec S_ 1 :=
  let main_v0 : FVec F S4x16x1024x1024 .f32 := Host.absf main_arg0
  let main_cst : FVec F S_ .f32 := constant S_ .f32 0x7F800000#32
  let main_v1 : FVec F S4x16x1024x1024 .f32 := broadcastInDim S4x16x1024x1024 ![] bcast_S_S4x16x1024x1024 main_cst
  let main_v2 : IVec S4x16x1024x1024 1 := cmpf .olt main_v0 main_v1
  let main_c : IVec S_ 1 := constantI S_ 1 1#1
  let main_v3 : IVec S_ 1 := (fun x v => Host.reduce IntOp.andi x v reducesTo_S4x16x1024x1024_S_d0_1_2_3 h_S_) main_v2 main_c
  let main_v4 : FVec F S4x16x1024x1024 .f32 := Host.absf main_arg1
  let main_cst_0 : FVec F S_ .f32 := constant S_ .f32 0x7F800000#32
  let main_v5 : FVec F S4x16x1024x1024 .f32 := broadcastInDim S4x16x1024x1024 ![] bcast_S_S4x16x1024x1024 main_cst_0
  let main_v6 : IVec S4x16x1024x1024 1 := cmpf .olt main_v4 main_v5
  let main_c_1 : IVec S_ 1 := constantI S_ 1 1#1
  let main_v7 : IVec S_ 1 := (fun x v => Host.reduce IntOp.andi x v reducesTo_S4x16x1024x1024_S_d0_1_2_3 h_S_) main_v6 main_c_1
  let main_v8 : IVec S_ 1 := andi main_v3 main_v7
  let main_c_2 : IVec S_ 32 := constantI S_ 32 0#32
  let main_v9 : IVec S4x1x1024x1024 32 := broadcastInDim S4x1x1024x1024 ![] bcast_S_S4x1x1024x1024 main_c_2
  let main_v10 : IVec S4x1x1024x1024 1 := cmpi .sge main_arg2 main_v9
  let main_c_3 : IVec S_ 1 := constantI S_ 1 1#1
  let main_v11 : IVec S_ 1 := (fun x v => Host.reduce IntOp.andi x v reducesTo_S4x1x1024x1024_S_d0_1_2_3 h_S_) main_v10 main_c_3
  let main_v12 : IVec S_ 1 := andi main_v8 main_v11
  let main_c_4 : IVec S_ 32 := constantI S_ 32 512#32
  let main_v13 : IVec S4x1x1024x1024 32 := broadcastInDim S4x1x1024x1024 ![] bcast_S_S4x1x1024x1024 main_c_4
  let main_v14 : IVec S4x1x1024x1024 1 := cmpi .sle main_arg2 main_v13
  let main_c_5 : IVec S_ 1 := constantI S_ 1 1#1
  let main_v15 : IVec S_ 1 := (fun x v => Host.reduce IntOp.andi x v reducesTo_S4x1x1024x1024_S_d0_1_2_3 h_S_) main_v14 main_c_5
  fn_part1 (F := F) main_v12 main_v15
-- ==== Kernel.lean ====
abbrev S4x16x1024x1024 : Shape := ⟨4, ![4, 16, 1024, 1024]⟩
abbrev S4x1x1024x1024 : Shape := ⟨4, ![4, 1, 1024, 1024]⟩
abbrev S4x16x1048576 : Shape := ⟨3, ![4, 16, 1048576]⟩
abbrev S4x1x1048576 : Shape := ⟨3, ![4, 1, 1048576]⟩
abbrev S4x16x512 : Shape := ⟨3, ![4, 16, 512]⟩
abbrev S4x1x512 : Shape := ⟨3, ![4, 1, 512]⟩
abbrev S1x16x32768 : Shape := ⟨3, ![1, 16, 32768]⟩
abbrev S1x1x32768 : Shape := ⟨3, ![1, 1, 32768]⟩
abbrev S1x16x512 : Shape := ⟨3, ![1, 16, 512]⟩
abbrev S1x1x512 : Shape := ⟨3, ![1, 1, 512]⟩
abbrev S40x512 : Shape := ⟨2, ![40, 512]⟩
abbrev S16x32768 : Shape := ⟨2, ![16, 32768]⟩
abbrev S1x32768 : Shape := ⟨2, ![1, 32768]⟩
abbrev S512x32768 : Shape := ⟨2, ![512, 32768]⟩
abbrev S7x32768 : Shape := ⟨2, ![7, 32768]⟩
abbrev S40x32768 : Shape := ⟨2, ![40, 32768]⟩
abbrev S16x512 : Shape := ⟨2, ![16, 512]⟩
abbrev S1x512 : Shape := ⟨2, ![1, 512]⟩
abbrev S_ : Shape := ⟨0, ![]⟩
abbrev S4x512x16 : Shape := ⟨3, ![4, 512, 16]⟩
abbrev S2048x16 : Shape := ⟨2, ![2048, 16]⟩
abbrev S4x512 : Shape := ⟨2, ![4, 512]⟩
abbrev S512 : Shape := ⟨1, ![512]⟩
abbrev S2048 : Shape := ⟨1, ![2048]⟩

abbrev nBuf : Space → Nat
  | .hbm => 35
  | .vmem => 13
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024x1024, .f32⟩
  | .hbm, ⟨2, _⟩ => ⟨S4x1x1024x1024, .i32⟩
  | .hbm, ⟨3, _⟩ => ⟨S4x16x1048576, .f32⟩
  | .hbm, ⟨4, _⟩ => ⟨S4x16x1048576, .f32⟩
  | .hbm, ⟨5, _⟩ => ⟨S4x1x1048576, .i32⟩
  | .hbm, ⟨6, _⟩ => ⟨S4x16x512, .f32⟩
  | .hbm, ⟨7, _⟩ => ⟨S4x16x512, .f32⟩
  | .hbm, ⟨8, _⟩ => ⟨S4x1x512, .f32⟩
  | .hbm, ⟨9, _⟩ => ⟨S_, .f32⟩
  | .hbm, ⟨10, _⟩ => ⟨S4x1x512, .f32⟩
  | .hbm, ⟨11, _⟩ => ⟨S4x1x512, .f32⟩
  | .hbm, ⟨12, _⟩ => ⟨S4x16x512, .f32⟩
  | .hbm, ⟨13, _⟩ => ⟨S4x16x512, .f32⟩
  | .hbm, ⟨14, _⟩ => ⟨S4x512x16, .f32⟩
  | .hbm, ⟨15, _⟩ => ⟨S2048x16, .f32⟩
  | .hbm, ⟨16, _⟩ => ⟨S4x16x512, .f32⟩
  | .hbm, ⟨17, _⟩ => ⟨S4x16x512, .f32⟩
  | .hbm, ⟨18, _⟩ => ⟨S4x512x16, .f32⟩
  | .hbm, ⟨19, _⟩ => ⟨S2048x16, .f32⟩
  | .hbm, ⟨20, _⟩ => ⟨S4x512, .f32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S_, .f32⟩
  | .hbm, ⟨26, _⟩ => ⟨S4x512, .f32⟩
  | .hbm, ⟨27, _⟩ => ⟨S4x512, .i1⟩
  | .hbm, ⟨28, _⟩ => ⟨S1x512, .i32⟩
  | .hbm, ⟨29, _⟩ => ⟨S_, .i32⟩
  | .hbm, ⟨30, _⟩ => ⟨S_, .i32⟩
  | .hbm, ⟨31, _⟩ => ⟨S4x512, .i32⟩
  | .hbm, ⟨32, _⟩ => ⟨S4x512, .i32⟩
  | .hbm, ⟨33, _⟩ => ⟨S4x512, .i32⟩
  | .hbm, ⟨34, _⟩ => ⟨S2048, .i32⟩
  | .local _ .vmem, ⟨0, _⟩ => ⟨S1x16x32768, .f32⟩
  | .local _ .vmem, ⟨1, _⟩ => ⟨S1x16x32768, .f32⟩
  | .local _ .vmem, ⟨2, _⟩ => ⟨S1x16x32768, .f32⟩
  | .local _ .vmem, ⟨3, _⟩ => ⟨S1x16x32768, .f32⟩
  | .local _ .vmem, ⟨4, _⟩ => ⟨S1x1x32768, .i32⟩
  | .local _ .vmem, ⟨5, _⟩ => ⟨S1x1x32768, .i32⟩
  | .local _ .vmem, ⟨6, _⟩ => ⟨S1x16x512, .f32⟩
  | .local _ .vmem, ⟨7, _⟩ => ⟨S1x16x512, .f32⟩
  | .local _ .vmem, ⟨8, _⟩ => ⟨S1x16x512, .f32⟩
  | .local _ .vmem, ⟨9, _⟩ => ⟨S1x16x512, .f32⟩
  | .local _ .vmem, ⟨10, _⟩ => ⟨S1x1x512, .f32⟩
  | .local _ .vmem, ⟨11, _⟩ => ⟨S1x1x512, .f32⟩
  | .local _ .vmem, ⟨12, _⟩ => ⟨S40x512, .f32⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v28 : BitVec 1 := Scalar.cmpi .eq arg1 c31_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x16x1024x1024_S4x16x1048576 : S4x16x1024x1024.ShapeCasts S4x16x1048576
  shapeCasts_S4x1x1024x1024_S4x1x1048576 : S4x1x1024x1024.ShapeCasts S4x1x1048576
  inb_S40x512_S40x512_0_0 : ∀ a, (![0, 0] : Fin 2 → Nat) a + S40x512.size a ≤ S40x512.size a
  h_S40x512 : 0 < S40x512.numel
  shapeCasts_S40x512_S40x512 : S40x512.ShapeCasts S40x512
  inb_S1x16x32768_S1x16x32768_0_0_0 : ∀ a, (![0, 0, 0] : Fin 3 → Nat) a + S1x16x32768.size a ≤ S1x16x32768.size a
  h_S1x16x32768 : 0 < S1x16x32768.numel
  shapeCasts_S1x16x32768_S16x32768 : S1x16x32768.ShapeCasts S16x32768
  bitsLt_bf16_f32 : FTy.bits .bf16 < FTy.bits .f32
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S1x32768 : S1x1x32768.ShapeCasts S1x32768
  iota_S512x32768_d0_w32 : S512x32768.Iotas .tc 32 [0]
  broadcasts_S1x32768_S512x32768 : S1x32768.Broadcasts S512x32768
  natLt_1_32 : 1 < 32
  concatenates_S16x32768_S16x32768_S1x32768_S7x32768_S40x32768_d0 : Shape.Concatenates [S16x32768, S16x32768, S1x32768, S7x32768] S40x32768 0
  slices_S40x512_o0_0_S16x512 : S40x512.Slices ![0, 0] S16x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  slices_S40x512_o16_0_S16x512 : S40x512.Slices ![16, 0] S16x512
  slices_S40x512_o32_0_S1x512 : S40x512.Slices ![32, 0] S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  bcast_S_S4x1x512 : S_.BroadcastsInDim S4x1x512 (![] : Fin 0 → Fin S4x1x512.rank)
  bcast_S4x1x512_S4x16x512_0_1_2 : S4x1x512.BroadcastsInDim S4x16x512 (![0, 1, 2] : Fin 3 → Fin S4x16x512.rank)
  transposes_S4x16x512_S4x512x16_0_2_1 : S4x16x512.Transposes [0, 2, 1] S4x512x16
  shapeCasts_S4x512x16_S2048x16 : S4x512x16.ShapeCasts S2048x16
  shapeCasts_S4x1x512_S4x512 : S4x1x512.ShapeCasts S4x512
  bcast_S_S512 : S_.BroadcastsInDim S512 (![] : Fin 0 → Fin S512.rank)
  bcast_S_S4x512 : S_.BroadcastsInDim S4x512 (![] : Fin 0 → Fin S4x512.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  shapeCasts_S4x512_S2048 : S4x512.ShapeCasts S2048
  dot_S40x32768_S512x32768_S40x512_1_1_0_0_n_n_wf : DotDims.WF S40x32768 S512x32768 S40x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32768.size a ≤ S4x16x1048576.size a
  hwx0_0 : ∀ i : grid0.Coords, EltTy.bits .f32 = 32 ∨ (Rect.block (s := S4x16x1048576) S1x16x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x32768.size a ≤ S4x16x1048576.size a
  hwx0_1 : ∀ i : grid0.Coords, EltTy.bits .f32 = 32 ∨ (Rect.block (s := S4x16x1048576) S1x16x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32768.size a ≤ S4x1x1048576.size a
  hwx0_2 : ∀ i : grid0.Coords, EltTy.bits .i32 = 32 ∨ (Rect.block (s := S4x1x1048576) S1x1x32768.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512.size a ≤ S4x16x512.size a
  hwx0_3 : ∀ i : grid0.Coords, EltTy.bits .f32 = 32 ∨ (Rect.block (s := S4x16x512) S1x16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512.size a ≤ S4x16x512.size a
  hwx0_4 : ∀ i : grid0.Coords, EltTy.bits .f32 = 32 ∨ (Rect.block (s := S4x16x512) S1x16x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S4x1x512.size a
  hwx0_5 : ∀ i : grid0.Coords, EltTy.bits .f32 = 32 ∨ (Rect.block (s := S4x1x512) S1x1x512.size (cc0_transform_5 i) (hinb0_5 i)).WholeWords (EltTy.packing .f32)

variable [Facts₀]

def dot_S40x32768_S512x32768_S40x512_1_1_0_0_n_n : DotDims S40x32768 S512x32768 S40x512 where
  lhsContracting := [1]
  rhsContracting := [1]
  lhsNonContracting := [0]
  rhsNonContracting := [0]
  lhsBatch := []
  rhsBatch := []
  wf := dot_S40x32768_S512x32768_S40x512_1_1_0_0_n_n_wf

abbrev win0_0 : Pipeline.Window sig grid0 :=
  Pipeline.Window.ofSpec (Memref.whole main_v0) S1x16x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x16x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x16x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x16x1024x1024 : Shape := ⟨4, ![4, 16, 1024, 1024]⟩
abbrev S4x1x1024x1024 : Shape := ⟨4, ![4, 1, 1024, 1024]⟩
abbrev S4x1048576 : Shape := ⟨2, ![4, 1048576]⟩
abbrev S4 : Shape := ⟨1, ![4]⟩
abbrev S4x1 : Shape := ⟨2, ![4, 1]⟩
abbrev S_ : Shape := ⟨0, ![]⟩
abbrev S4194304 : Shape := ⟨1, ![4194304]⟩
abbrev S4x1024x1024x16 : Shape := ⟨4, ![4, 1024, 1024, 16]⟩
abbrev S4194304x16 : Shape := ⟨2, ![4194304, 16]⟩
abbrev S2052x16 : Shape := ⟨2, ![2052, 16]⟩
abbrev S4194304x1 : Shape := ⟨2, ![4194304, 1]⟩
abbrev S2052 : Shape := ⟨1, ![2052]⟩
abbrev S4x513x16 : Shape := ⟨3, ![4, 513, 16]⟩
abbrev S4x512x16 : Shape := ⟨3, ![4, 512, 16]⟩
abbrev S4x513 : Shape := ⟨2, ![4, 513]⟩
abbrev S4x512 : Shape := ⟨2, ![4, 512]⟩
abbrev S4x512x1 : Shape := ⟨3, ![4, 512, 1]⟩
abbrev S2048x16 : Shape := ⟨2, ![2048, 16]⟩
abbrev S512 : Shape := ⟨1, ![512]⟩
abbrev S1x512 : Shape := ⟨2, ![1, 512]⟩
abbrev S2048 : Shape := ⟨1, ![2048]⟩

abbrev nBuf : Space → Nat
  | .hbm => 60
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024x1024, .f32⟩
  | .hbm, ⟨2, _⟩ => ⟨S4x1x1024x1024, .i32⟩
  | .hbm, ⟨3, _⟩ => ⟨S4x1048576, .i32⟩
  | .hbm, ⟨4, _⟩ => ⟨S4, .i32⟩
  | .hbm, ⟨5, _⟩ => ⟨S4x1, .i32⟩
  | .hbm, ⟨6, _⟩ => ⟨S_, .i32⟩
  | .hbm, ⟨7, _⟩ => ⟨S4x1, .i32⟩
  | .hbm, ⟨8, _⟩ => ⟨S4x1, .i32⟩
  | .hbm, ⟨9, _⟩ => ⟨S4x1048576, .i32⟩
  | .hbm, ⟨10, _⟩ => ⟨S4x1048576, .i32⟩
  | .hbm, ⟨11, _⟩ => ⟨S4194304, .i32⟩
  | .hbm, ⟨12, _⟩ => ⟨S4x1024x1024x16, .f32⟩
  | .hbm, ⟨13, _⟩ => ⟨S4194304x16, .f32⟩
  | .hbm, ⟨14, _⟩ => ⟨S4x1024x1024x16, .f32⟩
  | .hbm, ⟨15, _⟩ => ⟨S4194304x16, .f32⟩
  | .hbm, ⟨16, _⟩ => ⟨S_, .f32⟩
  | .hbm, ⟨17, _⟩ => ⟨S2052x16, .f32⟩
  | .hbm, ⟨18, _⟩ => ⟨S4194304x1, .i32⟩
  | .hbm, ⟨19, _⟩ => ⟨S2052x16, .f32⟩
  | .hbm, ⟨20, _⟩ => ⟨S_, .f32⟩
  | .hbm, ⟨21, _⟩ => ⟨S2052x16, .f32⟩
  | .hbm, ⟨22, _⟩ => ⟨S4194304x1, .i32⟩
  | .hbm, ⟨23, _⟩ => ⟨S2052x16, .f32⟩
  | .hbm, ⟨24, _⟩ => ⟨S_, .f32⟩
  | .hbm, ⟨25, _⟩ => ⟨S4194304, .f32⟩
  | .hbm, ⟨26, _⟩ => ⟨S_, .f32⟩
  | .hbm, ⟨27, _⟩ => ⟨S2052, .f32⟩
  | .hbm, ⟨28, _⟩ => ⟨S4194304x1, .i32⟩
  | .hbm, ⟨29, _⟩ => ⟨S2052, .f32⟩
  | .hbm, ⟨30, _⟩ => ⟨S4x513x16, .f32⟩
  | .hbm, ⟨31, _⟩ => ⟨S4x512x16, .f32⟩
  | .hbm, ⟨32, _⟩ => ⟨S4x513x16, .f32⟩
  | .hbm, ⟨33, _⟩ => ⟨S4x512x16, .f32⟩
  | .hbm, ⟨34, _⟩ => ⟨S4x513, .f32⟩
  | .hbm, ⟨35, _⟩ => ⟨S4x512, .f32⟩
  | .hbm, ⟨36, _⟩ => ⟨S_, .f32⟩
  | .hbm, ⟨37, _⟩ => ⟨S4x512, .f32⟩
  | .hbm, ⟨38, _⟩ => ⟨S4x512, .f32⟩
  | .hbm, ⟨39, _⟩ => ⟨S4x512x1, .f32⟩
  | .hbm, ⟨40, _⟩ => ⟨S4x512x16, .f32⟩
  | .hbm, ⟨41, _⟩ => ⟨S4x512x16, .f32⟩
  | .hbm, ⟨42, _⟩ => ⟨S2048x16, .f32⟩
  | .hbm, ⟨43, _⟩ => ⟨S4x512x16, .f32⟩
  | .hbm, ⟨44, _⟩ => ⟨S4x512x16, .f32⟩
  | .hbm, ⟨45, _⟩ => ⟨S2048x16, .f32⟩
  | .hbm, ⟨46, _⟩ => ⟨S512, .i32⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S_, .f32⟩
  | .hbm, ⟨51, _⟩ => ⟨S4x512, .f32⟩
  | .hbm, ⟨52, _⟩ => ⟨S4x512, .i1⟩
  | .hbm, ⟨53, _⟩ => ⟨S1x512, .i32⟩
  | .hbm, ⟨54, _⟩ => ⟨S_, .i32⟩
  | .hbm, ⟨55, _⟩ => ⟨S_, .i32⟩
  | .hbm, ⟨56, _⟩ => ⟨S4x512, .i32⟩
  | .hbm, ⟨57, _⟩ => ⟨S4x512, .i32⟩
  | .hbm, ⟨58, _⟩ => ⟨S4x512, .i32⟩
  | .hbm, ⟨59, _⟩ => ⟨S2048, .i32⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  shapeCasts_S4x1x1024x1024_S4x1048576 : S4x1x1024x1024.ShapeCasts S4x1048576
  bcast_S4_S4x1_0 : S4.BroadcastsInDim S4x1 (![0] : Fin 1 → Fin S4x1.rank)
  bcast_S_S4x1 : S_.BroadcastsInDim S4x1 (![] : Fin 0 → Fin S4x1.rank)
  bcast_S4x1_S4x1048576_0_1 : S4x1.BroadcastsInDim S4x1048576 (![0, 1] : Fin 2 → Fin S4x1048576.rank)
  shapeCasts_S4x1048576_S4194304 : S4x1048576.ShapeCasts S4194304
  transposes_S4x16x1024x1024_S4x1024x1024x16_0_2_3_1 : S4x16x1024x1024.Transposes [0, 2, 3, 1] S4x1024x1024x16
  shapeCasts_S4x1024x1024x16_S4194304x16 : S4x1024x1024x16.ShapeCasts S4194304x16
  bcast_S_S2052x16 : S_.BroadcastsInDim S2052x16 (![] : Fin 0 → Fin S2052x16.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S_S2052 : S_.BroadcastsInDim S2052 (![] : Fin 0 → Fin S2052.rank)
  shapeCasts_S2052x16_S4x513x16 : S2052x16.ShapeCasts S4x513x16
  slices_S4x513x16_S4x512x16_0_1_0 : S4x513x16.Slices ![0, 1, 0] S4x512x16
  shapeCasts_S2052_S4x513 : S2052.ShapeCasts S4x513
  slices_S4x513_S4x512_0_1 : S4x513.Slices ![0, 1] S4x512
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x16_0_1_2 : S4x512x1.BroadcastsInDim S4x512x16 (![0, 1, 2] : Fin 3 → Fin S4x512x16.rank)
  shapeCasts_S4x512x16_S2048x16 : S4x512x16.ShapeCasts S2048x16
  bcast_S_S512 : S_.BroadcastsInDim S512 (![] : Fin 0 → Fin S512.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  shapeCasts_S4x512_S2048 : S4x512.ShapeCasts S2048
  scatter_S2052x16_S4194304x1_S4194304x16_1_0_0_1_wf : ScatterDims.WF S2052x16 S4194304x1 S4194304x16 [1] [0] [0] 1
  scatter_S2052_S4194304x1_S4194304_n_0_0_1_wf : ScatterDims.WF S2052 S4194304x1 S4194304 [] [0] [0] 1

variable [Facts₀]

def scatter_S2052x16_S4194304x1_S4194304x16_1_0_0_1 : ScatterDims S2052x16 S4194304x1 S4194304x16 where
  updateWindowDims := [1]
  insertedWindowDims := [0]
  scatterDimsToOperandDims := [0]
  indexVectorDim := 1
  wf := scatter_S2052x16_S4194304x1_S4194304x16_1_0_0_1_wf
def scatter_S2052_S4194304x1_S4194304_n_0_0_1 : ScatterDims S2052 S4194304x1 S4194304 where
  updateWindowDims := []
  insertedWindowDims := [0]
  scatterDimsToOperandDims := [0]
  indexVectorDim := 1
  wf := scatter_S2052_S4194304x1_S4194304_n_0_0_1_wf

class Facts : Prop extends Facts₀ where

variable [Facts]
-- ==== Proof.SegSum.lean ====
/-
  The mathematics both programs compute, stated once, over plain functions of the three argument arrays.

  An image `b` has 1024 × 1024 pixels, flattened row-major to `p : Fin 1048576` (pixel `p` is row `p / 1024`, column
  `p % 1024`). A pixel's label word `w` belongs to label `j + 1` (`j : Fin 512`) exactly when `w = j + 1` as 32-bit words;
  `hot w j` is that test as the extended real 0 or 1. The sum of a channel over the pixels of one label is
  `segSum x lbl j = ∑ p, x p * hot (lbl p) j`: a product with 0 is 0 and with 1 is the factor on all of the extended
  reals, so this is the sum of `x` over the label's pixels, whatever `x` holds. A label's pixel count is the same sum of ones.
  The mean of channel `c` over label `j + 1` of image `b` is the sum divided by `max count 1`; the label's id is `j + 1`
  when the count is positive and `0` otherwise.

  The pixel axis splits into 32 tiles of 32768 pixels, pixel `q` of tile `k` being `32768 * k + q`; a sum over the
  pixels is the sum over the tiles of the sums inside each tile (`sum_tiles`): only commutativity and associativity of `+`.
-/
import Idealize.ShloMosaic.PureOps.Ideal
import Idealize.ShloMosaic.Lib.ValueIdx
import Mathlib.Algebra.BigOperators.Fin
import Mathlib.Logic.Equiv.Fin.Basic

noncomputable section

open scoped BigOperators

namespace Cert.SegMean

open Idealize.ShloMosaic Idealize.ShloMosaic.ValueIdx

/-- The label word `w` is label `j + 1`: the pixel's weight, 1 or 0, in that label's sums. -/
def hot (w : BitVec 32) (j : Fin 512) : EReal := if BitVec.ofNat 32 j.val + 1#32 = w then 1 else 0

/-- The sum of `x` over the pixels whose label word is `j + 1`. -/
def segSum (x : Fin 1048576 → EReal) (lbl : Fin 1048576 → BitVec 32) (j : Fin 512) : EReal :=
  ∑ p : Fin 1048576, x p * hot (lbl p) j

/-- Pixel `q` of tile `k` on the flat pixel axis. -/
def tq (k : Fin 32) (q : Fin 32768) : Fin 1048576 := ⟨32768 * k.val + q.val, by have := k.isLt; have := q.isLt; omega⟩

@[simp] theorem tq_val (k : Fin 32) (q : Fin 32768) : (tq k q).val = 32768 * k.val + q.val := rfl

/-- A sum over the pixels is the sum over the 32 tiles of the sums over each tile's 32768 pixels. -/
theorem sum_tiles (g : Fin 1048576 → EReal) : ∑ k : Fin 32, ∑ q : Fin 32768, g (tq k q) = ∑ p : Fin 1048576, g p := by
  -- the pair (tile, offset) ↦ 32768 * tile + offset is a bijection onto the pixels
  rw [← Fintype.sum_prod_type' (f := fun k q => g (tq k q))]
  refine Fintype.sum_equiv (finProdFinEquiv.trans (finCongr (by norm_num : 32 * 32768 = 1048576))) _ _ (fun x => ?_)
  refine congrArg g (Fin.ext ?_)
  simp only [Equiv.trans_apply, finCongr_apply, Fin.coe_cast, finProdFinEquiv_apply_val, tq_val]
  omega

/-- The row and the column of flat pixel `p`. -/
def prow (p : Fin 1048576) : Fin 1024 := ⟨p.val / 1024, by have := p.isLt; omega⟩
def pcol (p : Fin 1048576) : Fin 1024 := ⟨p.val % 1024, by omega⟩

/-- Image `b`'s label words along the flat pixel axis. -/
def labelsOf (a2 : (⟨4, ![4, 1, 1024, 1024]⟩ : Shape).Idx → BitVec 32) (b : Fin 4) (p : Fin 1048576) : BitVec 32 :=
  a2 (ix4 b (0 : Fin 1) (prow p) (pcol p))

/-- Channel `c` of image `b` along the flat pixel axis. -/
def chanOf (a : (⟨4, ![4, 16, 1024, 1024]⟩ : Shape).Idx → EReal) (b : Fin 4) (c : Fin 16) (p : Fin 1048576) : EReal :=
  a (ix4 b c (prow p) (pcol p))

/-- The sum of channel `c` of image `b` over label `j + 1`, and the label's pixel count. -/
def sumOf (a : (⟨4, ![4, 16, 1024, 1024]⟩ : Shape).Idx → EReal) (a2 : (⟨4, ![4, 1, 1024, 1024]⟩ : Shape).Idx → BitVec 32)
    (b : Fin 4) (c : Fin 16) (j : Fin 512) : EReal := segSum (chanOf a b c) (labelsOf a2 b) j
def countOf (a2 : (⟨4, ![4, 1, 1024, 1024]⟩ : Shape).Idx → BitVec 32) (b : Fin 4) (j : Fin 512) : EReal :=
  segSum (fun _ => 1) (labelsOf a2 b) j

/-- A sum over a count, the count floored at one (the word `0x3F800000` is the float 1). -/
def meanAt (s cnt : EReal) : EReal := Ideal.div s (max cnt (Ideal.ofBits .f32 0x3F800000#32))

/-- Label `j + 1`'s id: `j + 1` when its count is positive, else `0`. -/
def idAt (cnt : EReal) (j : Fin 512) : BitVec 32 :=
  Scalar.select (FloatOps.cmpf (F := Ideal) .ogt cnt (Ideal.ofBits .f32 0x00000000#32)) (IntOp.addi 1#32 (BitVec.ofNat 32 j.val)) 0#32

/-- Row `r` of the results is image `r / 512`, label `r % 512 + 1`. -/
def imgOf (r : Fin 2048) : Fin 4 := ⟨r.val / 512, by have := r.isLt; omega⟩
def lblOf (r : Fin 2048) : Fin 512 := ⟨r.val % 512, by omega⟩

/-- The two float results and the integer result as functions of the argument arrays. -/
def meanRes (a : (⟨4, ![4, 16, 1024, 1024]⟩ : Shape).Idx → EReal) (a2 : (⟨4, ![4, 1, 1024, 1024]⟩ : Shape).Idx → BitVec 32) :
    (⟨2, ![2048, 16]⟩ : Shape).Idx → EReal := fun i =>
  meanAt (sumOf a a2 (imgOf ⟨(i 0).val, idx2_lt0 i⟩) ⟨(i 1).val, idx2_lt1 i⟩ (lblOf ⟨(i 0).val, idx2_lt0 i⟩))
    (countOf a2 (imgOf ⟨(i 0).val, idx2_lt0 i⟩) (lblOf ⟨(i 0).val, idx2_lt0 i⟩))
def idRes (a2 : (⟨4, ![4, 1, 1024, 1024]⟩ : Shape).Idx → BitVec 32) : (⟨1, ![2048]⟩ : Shape).Idx → BitVec 32 := fun i =>
  idAt (countOf a2 (imgOf ⟨(i 0).val, (i 0).isLt⟩) (lblOf ⟨(i 0).val, (i 0).isLt⟩)) (lblOf ⟨(i 0).val, (i 0).isLt⟩)

theorem meanRes_ix2 (a : (⟨4, ![4, 16, 1024, 1024]⟩ : Shape).Idx → EReal) (a2 : (⟨4, ![4, 1, 1024, 1024]⟩ : Shape).Idx → BitVec 32)
    (r : Fin 2048) (c : Fin 16) :
    meanRes a a2 (ix2 r c) = meanAt (sumOf a a2 (imgOf r) c (lblOf r)) (countOf a2 (imgOf r) (lblOf r)) := rfl
theorem idRes_ix1 (a2 : (⟨4, ![4, 1, 1024, 1024]⟩ : Shape).Idx → BitVec 32) (r : Fin 2048) :
    idRes a2 (ix1 r) = idAt (countOf a2 (imgOf r) (lblOf r)) (lblOf r) := rfl

/-- A weight is 0 or 1, so a product with it keeps the factor or is 0. -/
theorem mul_hot (x : EReal) (w : BitVec 32) (j : Fin 512) :
    x * hot w j = if BitVec.ofNat 32 j.val + 1#32 = w then x else 0 := by
  unfold hot; split <;> simp

end Cert.SegMean

end
-- ==== Proof.RefIds.lean ====
/-
  The label range, and the flattened segment ids.

  The precondition's last two conjuncts say every label word, read as a signed integer, is at least 0 and at most 512.
  The reference gives pixel `p` of image `b` — row `1048576 * b + p` of its flattened pixel list — the segment id
  `label + 513 * b`, computed on 32-bit words; with the label in 0..512 and `b < 4` nothing wraps, so the id read as a signed
  integer is `label + 513 * b`, between `513 * b` and `513 * b + 512`: an image's ids stay inside its own 513 slots.
-/
import proofs.«401834_j154618822672_2_alg».proof.Proof.RefReadP
import proofs.«401834_j154618822672_2_alg».proof.Proof.Gen.Pre_finite_inputs
import proofs.«401834_j154618822672_2_alg».proof.Proof.SegSum
import Idealize.ShloMosaic.Lib.ReduceAll
import Idealize.ShloMosaic.Lib.StableHlo.Predicate

noncomputable section

open scoped BigOperators

namespace Cert.ReferenceIdeal.Ids

open Cert.ReferenceIdeal Cert.ReferenceIdeal.Gen Idealize.ShloMosaic Idealize.ShloMosaic.TcCoe Idealize.ShloMosaic.ValueIdx Cert.SegMean

/-- Row `1048576 * b + p` of the flattened pixel list is pixel `p` of image `b`. -/
def flat (b : Fin 4) (p : Fin 1048576) : Fin 4194304 := ⟨1048576 * b.val + p.val, by have := b.isLt; have := p.isLt; omega⟩

@[simp] theorem flat_val (b : Fin 4) (p : Fin 1048576) : (flat b p).val = 1048576 * b.val + p.val := rfl

/-- Every row of the flattened pixel list is some image's pixel. -/
theorem flat_surj (n : Fin 4194304) : ∃ (b : Fin 4) (p : Fin 1048576), n = flat b p := by
  have hn := n.isLt
  exact ⟨⟨n.val / 1048576, by omega⟩, ⟨n.val % 1048576, by omega⟩, Fin.ext (by simp only [flat_val]; omega)⟩

/-- The scalar shape has one index. -/
instance subsingleton_scalar_idx : Subsingleton Cert.Pre_finite_inputs.S_.Idx := ⟨fun a b => funext fun d => d.elim0⟩

/-- Under the precondition every label word is in 0..512. -/
theorem range_of_pre [Cert.Pre_finite_inputs.Facts]
    (x0 x1 : FVec Ideal Cert.Pre_finite_inputs.S4x16x1024x1024 .f32) (x2 : IVec Cert.Pre_finite_inputs.S4x1x1024x1024 32)
    (h : Cert.Pre_finite_inputs.fn (F := Ideal) x0 x1 x2 = fun _ => 1#1) :
    ∀ i, 0 ≤ (x2 i).toInt ∧ (x2 i).toInt ≤ 512 := by
  intro i
  have e := congrFun h ix0
  dsimp only [Cert.Pre_finite_inputs.fn, Cert.Pre_finite_inputs.fn_part1] at e
  obtain ⟨e12, e15⟩ := IntOp.andi_eq_one.1 e
  obtain ⟨e8, e11⟩ := IntOp.andi_eq_one.1 e12
  have g0 := Host.reduce_andi_all _ _ _ _ _ e11 i
  have g1 := Host.reduce_andi_all _ _ _ _ _ e15 i
  have g0' : (0#32 : BitVec 32).toInt ≤ (x2 i).toInt := IntOp.cmpi_sge.1 g0
  have g1' : (x2 i).toInt ≤ (512#32 : BitVec 32).toInt := IntOp.cmpi_sle.1 g1
  have z0 : (0#32 : BitVec 32).toInt = 0 := by decide
  have z1 : (512#32 : BitVec 32).toInt = 512 := by decide
  rw [z0] at g0'
  rw [z1] at g1'
  exact ⟨g0', g1'⟩

/-- The composed reads of the label reshape at row `1048576 * b + p` land on image `b`, row `p / 1024`, column `p % 1024`. -/
theorem idx_labels (b : Fin 4) (p : Fin 1048576) :
    ReadP.idx_main_v0 (ReadP.idx_main_v7 (ix1 (flat b p))) = ix4 b (0 : Fin 1) (prow p) (pcol p) := by
  have hb := b.isLt; have hp := p.isLt
  funext a
  match a with
  | ⟨0, _⟩ => exact Fin.ext (by show ((1048576 * b.val + p.val) / 1048576 * 1048576 + (1048576 * b.val + p.val) % 1048576) / 1048576 = b.val; omega)
  | ⟨1, _⟩ => rfl
  | ⟨2, _⟩ => exact Fin.ext (by show ((1048576 * b.val + p.val) / 1048576 * 1048576 + (1048576 * b.val + p.val) % 1048576) / 1024 % 1024 = p.val / 1024; omega)
  | ⟨3, _⟩ => exact Fin.ext (by show ((1048576 * b.val + p.val) / 1048576 * 1048576 + (1048576 * b.val + p.val) % 1048576) % 1024 = p.val % 1024; omega)

/-- A label word in 0..512 plus `513 * b` for `b < 4`, on 32-bit words, does not wrap. -/
theorem word_id (w : BitVec 32) (h0 : 0 ≤ w.toInt) (h1 : w.toInt ≤ 512) (b : Nat) (hb : b < 4) :
    (IntOp.addi w (IntOp.muli (BitVec.ofNat 32 b) 513#32)).toInt = w.toInt + 513 * (b : Int) := by
  have hlt := w.isLt
  have hw : w.toNat ≤ 512 := by
    rw [BitVec.toInt_eq_toNat_cond] at h0 h1
    split at h0 <;> omega
  have hi : w.toInt = (w.toNat : Int) := StableHlo.Predicate.toInt_eq_toNat_of_lt (by omega)
  have e : (w + BitVec.ofNat 32 b * 513#32).toNat = w.toNat + 513 * b := by
    rw [BitVec.toNat_add, BitVec.toNat_mul, BitVec.toNat_ofNat]
    show (w.toNat + b % 2 ^ 32 * 513 % 2 ^ 32) % 2 ^ 32 = _
    omega
  show (w + BitVec.ofNat 32 b * 513#32).toInt = _
  rw [StableHlo.Predicate.toInt_eq_toNat_of_lt (by omega), e, hi]
  push_cast
  ring

/-- The segment id of pixel `p` of image `b`, read as a signed integer, is its label plus `513 * b`. -/
theorem ids_toInt (x2 : IVec S4x1x1024x1024 32) (hr : ∀ i, 0 ≤ (x2 i).toInt ∧ (x2 i).toInt ≤ 512) (b : Fin 4) (p : Fin 1048576) :
    (ReadP.val_main_v7 (F := Ideal) x2 (ix1 (flat b p))).toInt = (labelsOf x2 b p).toInt + 513 * (b.val : Int) := by
  rw [ReadP.val_main_v7_apply, ReadP.val_main_v6_apply, ReadP.val_main_v0_apply, ReadP.val_main_v5_apply, ReadP.val_main_v4_apply,
    ReadP.val_main_v2_apply, ReadP.val_main_v3_apply, ReadP.val_main_v1_apply, ReadP.val_main_c_apply, idx_labels]
  have hb : ((ReadP.idx_main_v2 (ReadP.idx_main_v5 (ReadP.idx_main_v7 (ix1 (flat b p))))) 0).val = b.val := by
    have hb := b.isLt; have hp := p.isLt
    show (1048576 * b.val + p.val) / 1048576 = b.val
    omega
  rw [hb]
  exact word_id _ (hr _).1 (hr _).2 b.val b.isLt

/-- The composed reads of the transposed-then-flattened float rows at row `1048576 * b + p`, column `ch`. -/
theorem idx_rows (b : Fin 4) (p : Fin 1048576) (ch : Fin 16) :
    ReadP.idx_main_v8 (ReadP.idx_main_v9 (ix2 (flat b p) ch)) = ix4 b ch (prow p) (pcol p) := by
  have hb := b.isLt; have hp := p.isLt; have hc := ch.isLt
  funext a
  match a with
  | ⟨0, _⟩ => exact Fin.ext (by show ((1048576 * b.val + p.val) * 16 + ch.val) / 16777216 = b.val; omega)
  | ⟨1, _⟩ => exact Fin.ext (by show ((1048576 * b.val + p.val) * 16 + ch.val) % 16 = ch.val; omega)
  | ⟨2, _⟩ => exact Fin.ext (by show ((1048576 * b.val + p.val) * 16 + ch.val) / 16384 % 1024 = p.val / 1024; omega)
  | ⟨3, _⟩ => exact Fin.ext (by show ((1048576 * b.val + p.val) * 16 + ch.val) / 16 % 1024 = p.val % 1024; omega)

/-- The flattened float rows: row `1048576 * b + p`, column `ch`, is channel `ch` of image `b` at pixel `p`. -/
theorem rows0_apply (x0 : FVec Ideal S4x16x1024x1024 .f32) (b : Fin 4) (p : Fin 1048576) (ch : Fin 16) :
    ReadP.val_main_v9 (F := Ideal) x0 (ix2 (flat b p) ch) = chanOf x0 b ch p := by
  rw [ReadP.val_main_v9_apply, ReadP.val_main_v8_apply, idx_rows]
  rfl
theorem rows1_apply (x1 : FVec Ideal S4x16x1024x1024 .f32) (b : Fin 4) (p : Fin 1048576) (ch : Fin 16) :
    ReadP.val_main_v11 (F := Ideal) x1 (ix2 (flat b p) ch) = chanOf x1 b ch p := by
  rw [ReadP.val_main_v11_apply, ReadP.val_main_v10_apply]
  exact congrArg x1 (idx_rows b p ch)

end Cert.ReferenceIdeal.Ids

end
-- ==== Proof.LibScatterRows.lean ====
/-
  An accumulating float scatter read at an index, at the exact (extended-real) instance.

  `Host.scatterAdd d x idx upd` at the exact instance is each operand element plus the sum of the update elements that
  land on it. For the dimension numbers of a row scatter — update window axis `[1]`, inserted window axis `[0]`, scatter
  axis to operand axis `[0]`, the index vector on axis 1 of an `[N, 1]` index column — update element `(n, c)` lands on
  operand element `(idx n, c)`, the index word read as a signed integer and not clamped, and is dropped when that row is
  outside the operand. So entry `(r, c)` of the result is `x (r, c)` plus the sum over the update rows `n` whose index
  word is `r` of `upd (n, c)`. The rank-1 form (no window axis) is the same without the column.
-/
import Idealize.ShloMosaic.PureOps.Ideal
import Idealize.ShloMosaic.PureOps.Contract
import Idealize.ShloMosaic.PureOps.Dims
import Idealize.ShloMosaic.Lib.ValueIdx

noncomputable section

open scoped BigOperators

namespace Idealize.ShloMosaic.LibScatterRows

open Idealize.ShloMosaic Idealize.ShloMosaic.ValueIdx

section Rows
variable {N R C w : Nat}
  (wf : ScatterDims.WF (⟨2, ![R, C]⟩ : Shape) (⟨2, ![N, 1]⟩ : Shape) (⟨2, ![N, C]⟩ : Shape) [1] [0] [0] 1)

/-- The row scatter's dimension numbers. -/
abbrev rowsDims : ScatterDims (⟨2, ![R, C]⟩ : Shape) (⟨2, ![N, 1]⟩ : Shape) (⟨2, ![N, C]⟩ : Shape) :=
  ⟨[1], [0], [0], 1, wf⟩

/-- On operand axis 0 the window of update element `(n, c')` starts at row `n`'s index word, read signed. -/
theorem rows_start0 (idx : IVec (⟨2, ![N, 1]⟩ : Shape) w) (n : Fin N) (c' : Fin C) :
    (rowsDims wf).start (ix2 n c') idx 0 = (idx (ix2 n (0 : Fin 1))).toInt := by
  unfold ScatterDims.start
  rw [dif_pos (show (0 : Fin 2) ∈ (rowsDims wf).scatterDimsToOperandDims from List.mem_singleton.mpr rfl)]
  congr 2
  funext b; refine Fin.ext ?_
  match b with
  | ⟨0, _⟩ => rfl
  | ⟨1, _⟩ => rfl

/-- On operand axis 1, which the scatter map does not name, every window starts at `0`. -/
theorem rows_start1 (idx : IVec (⟨2, ![N, 1]⟩ : Shape) w) (n : Fin N) (c' : Fin C) :
    (rowsDims wf).start (ix2 n c') idx 1 = 0 := by
  unfold ScatterDims.start
  rw [dif_neg (show (1 : Fin 2) ∉ ([0] : List (Fin 2)) by decide)]

/-- Operand axis 0 is an inserted window axis: the window coordinate there is `0`. -/
theorem rows_window0 (n : Fin N) (c' : Fin C) : (rowsDims wf).window (ix2 n c') 0 = 0 := by
  unfold ScatterDims.window
  have h : (0 : Fin 2) ∉ (rowsDims wf).sKept := (by decide : (0 : Fin 2) ∉ ([1] : List (Fin 2)))
  rw [dif_neg h]

/-- On operand axis 1 the window coordinate of update element `(n, c')` is its column `c'`. -/
theorem rows_window1 (n : Fin N) (c' : Fin C) : (rowsDims wf).window (ix2 n c') 1 = c'.val := by
  unfold ScatterDims.window
  have h : (1 : Fin 2) ∈ (rowsDims wf).sKept := (by decide : (1 : Fin 2) ∈ ([1] : List (Fin 2)))
  rw [dif_pos h]
  rfl

/-- Update element `(n, c')` lands on operand element `(r, c)` exactly when row `n`'s index word, read signed, is `r`
    and `c' = c`; a row whose index word is outside `[0, R)` lands nowhere (a column is always inside `[0, C)`). -/
theorem rows_resultIdx_iff (idx : IVec (⟨2, ![N, 1]⟩ : Shape) w) (n : Fin N) (c' : Fin C) (r : Fin R) (c : Fin C) :
    (rowsDims wf).resultIdx? (ix2 n c') idx = some (ix2 r c)
      ↔ (idx (ix2 n (0 : Fin 1))).toInt = (r.val : Int) ∧ c' = c := by
  unfold ScatterDims.resultIdx?
  split
  · rename_i h
    rw [Option.some.injEq]
    constructor
    · intro e
      have e0 : ((rowsDims wf).start (ix2 n c') idx 0 + ((rowsDims wf).window (ix2 n c') 0 : Nat)).toNat = r.val :=
        congrArg (fun f => (f 0).val) e
      have e1 : ((rowsDims wf).start (ix2 n c') idx 1 + ((rowsDims wf).window (ix2 n c') 1 : Nat)).toNat = c.val :=
        congrArg (fun f => (f 1).val) e
      have h0 := (h 0).1
      rw [rows_start0, rows_window0] at e0 h0
      rw [rows_start1, rows_window1] at e1
      refine ⟨?_, Fin.ext ?_⟩
      · omega
      · omega
    · rintro ⟨e0, rfl⟩
      funext a; refine Fin.ext ?_
      match a with
      | ⟨0, _⟩ =>
        show ((rowsDims wf).start (ix2 n c') idx 0 + ((rowsDims wf).window (ix2 n c') 0 : Nat)).toNat = r.val
        rw [rows_start0, rows_window0, e0]; omega
      | ⟨1, _⟩ =>
        show ((rowsDims wf).start (ix2 n c') idx 1 + ((rowsDims wf).window (ix2 n c') 1 : Nat)).toNat = c'.val
        rw [rows_start1, rows_window1]; omega
  · rename_i h
    constructor
    · intro e; cases e
    · rintro ⟨e0, rfl⟩
      exfalso; apply h
      intro a
      match a with
      | ⟨0, _⟩ =>
        show 0 ≤ (rowsDims wf).start (ix2 n c') idx 0 + ((rowsDims wf).window (ix2 n c') 0 : Nat)
          ∧ (rowsDims wf).start (ix2 n c') idx 0 + ((rowsDims wf).window (ix2 n c') 0 : Nat) < ((R : Nat) : Int)
        rw [rows_start0, rows_window0, e0]; have := r.isLt; omega
      | ⟨1, _⟩ =>
        show 0 ≤ (rowsDims wf).start (ix2 n c') idx 1 + ((rowsDims wf).window (ix2 n c') 1 : Nat)
          ∧ (rowsDims wf).start (ix2 n c') idx 1 + ((rowsDims wf).window (ix2 n c') 1 : Nat) < ((C : Nat) : Int)
        rw [rows_start1, rows_window1]; have := c'.isLt; omega

end Rows

/-- A row scatter-add of an `[N, C]` update into an `[R, C]` operand at an `[N, 1]` index column, read at `(r, c)`. -/
theorem scatterAdd_rows_apply {N R C w : Nat} {φ : FTy}
    (wf : ScatterDims.WF (⟨2, ![R, C]⟩ : Shape) (⟨2, ![N, 1]⟩ : Shape) (⟨2, ![N, C]⟩ : Shape) [1] [0] [0] 1)
    (x : FVec Ideal (⟨2, ![R, C]⟩ : Shape) φ) (idx : IVec (⟨2, ![N, 1]⟩ : Shape) w) (upd : FVec Ideal (⟨2, ![N, C]⟩ : Shape) φ)
    (r : Fin R) (c : Fin C) :
    Host.scatterAdd (F := Ideal) (⟨[1], [0], [0], 1, wf⟩ : ScatterDims (⟨2, ![R, C]⟩ : Shape) (⟨2, ![N, 1]⟩ : Shape) (⟨2, ![N, C]⟩ : Shape)) x idx upd (ix2 r c)
      = x (ix2 r c) + ∑ n : Fin N, if (idx (ix2 n (0 : Fin 1))).toInt = (r.val : Int) then upd (ix2 n c) else 0 := by
  show x (ix2 r c) + ∑ j ∈ Finset.univ.filter (fun j => (rowsDims wf).resultIdx? j idx = some (ix2 r c)), upd j = _
  congr 1
  rw [Finset.sum_filter, sum_idx2]
  refine Finset.sum_congr rfl fun n _ => ?_
  simp only [rows_resultIdx_iff]
  by_cases hA : (idx (ix2 n (0 : Fin 1))).toInt = (r.val : Int)
  · simp only [hA, true_and, if_true]
    exact Finset.sum_ite_eq' Finset.univ c (fun c' => upd (ix2 n c')) |>.trans (by simp)
  · simp only [hA, false_and, if_false]
    exact Finset.sum_const_zero

section Vec
variable {N R w : Nat}
  (wf : ScatterDims.WF (⟨1, ![R]⟩ : Shape) (⟨2, ![N, 1]⟩ : Shape) (⟨1, ![N]⟩ : Shape) [] [0] [0] 1)

/-- The rank-1 scatter's dimension numbers. -/
abbrev vecDims : ScatterDims (⟨1, ![R]⟩ : Shape) (⟨2, ![N, 1]⟩ : Shape) (⟨1, ![N]⟩ : Shape) :=
  ⟨[], [0], [0], 1, wf⟩

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- On the operand's one axis the window of update element `n` starts at its index word, read signed. -/
theorem vec_start0 (idx : IVec (⟨2, ![N, 1]⟩ : Shape) w) (n : Fin N) :
    (vecDims wf).start (ix1 n) idx 0 = (idx (ix2 n (0 : Fin 1))).toInt := by
  unfold ScatterDims.start
  rw [dif_pos (show (0 : Fin 1) ∈ (vecDims wf).scatterDimsToOperandDims from List.mem_singleton.mpr rfl)]
  congr 2
  funext b; refine Fin.ext ?_
  match b with
  | ⟨0, _⟩ => rfl
  | ⟨1, _⟩ => rfl

/-- The operand's one axis is an inserted window axis: the window coordinate there is `0`. -/
theorem vec_window0 (n : Fin N) : (vecDims wf).window (ix1 n) 0 = 0 := by
  unfold ScatterDims.window
  have h : (0 : Fin 1) ∉ (vecDims wf).sKept := (by decide : (0 : Fin 1) ∉ ([] : List (Fin 1)))
  rw [dif_neg h]

/-- Update element `n` lands on operand element `r` exactly when its index word, read signed, is `r`; an index word
    outside `[0, R)` lands nowhere. -/
theorem vec_resultIdx_iff (idx : IVec (⟨2, ![N, 1]⟩ : Shape) w) (n : Fin N) (r : Fin R) :
    (vecDims wf).resultIdx? (ix1 n) idx = some (ix1 r) ↔ (idx (ix2 n (0 : Fin 1))).toInt = (r.val : Int) := by
  unfold ScatterDims.resultIdx?
  split
  · rename_i h
    rw [Option.some.injEq]
    constructor
    · intro e
      have e0 : ((vecDims wf).start (ix1 n) idx 0 + ((vecDims wf).window (ix1 n) 0 : Nat)).toNat = r.val :=
        congrArg (fun f => (f 0).val) e
      have h0 := (h 0).1
      rw [vec_start0, vec_window0] at e0 h0
      omega
    · intro e0
      funext a; refine Fin.ext ?_
      match a with
      | ⟨0, _⟩ =>
        show ((vecDims wf).start (ix1 n) idx 0 + ((vecDims wf).window (ix1 n) 0 : Nat)).toNat = r.val
        rw [vec_start0, vec_window0, e0]; omega
  · rename_i h
    constructor
    · intro e; cases e
    · intro e0
      exfalso; apply h
      intro a
      match a with
      | ⟨0, _⟩ =>
        show 0 ≤ (vecDims wf).start (ix1 n) idx 0 + ((vecDims wf).window (ix1 n) 0 : Nat)
          ∧ (vecDims wf).start (ix1 n) idx 0 + ((vecDims wf).window (ix1 n) 0 : Nat) < ((R : Nat) : Int)
        rw [vec_start0, vec_window0, e0]; have := r.isLt; omega

end Vec

/-- A scatter-add of an `[N]` update into an `[R]` operand at an `[N, 1]` index column, read at `r`. -/
theorem scatterAdd_vec_apply {N R w : Nat} {φ : FTy}
    (wf : ScatterDims.WF (⟨1, ![R]⟩ : Shape) (⟨2, ![N, 1]⟩ : Shape) (⟨1, ![N]⟩ : Shape) [] [0] [0] 1)
    (x : FVec Ideal (⟨1, ![R]⟩ : Shape) φ) (idx : IVec (⟨2, ![N, 1]⟩ : Shape) w) (upd : FVec Ideal (⟨1, ![N]⟩ : Shape) φ)
    (r : Fin R) :
    Host.scatterAdd (F := Ideal) (⟨[], [0], [0], 1, wf⟩ : ScatterDims (⟨1, ![R]⟩ : Shape) (⟨2, ![N, 1]⟩ : Shape) (⟨1, ![N]⟩ : Shape)) x idx upd (ix1 r)
      = x (ix1 r) + ∑ n : Fin N, if (idx (ix2 n (0 : Fin 1))).toInt = (r.val : Int) then upd (ix1 n) else 0 := by
  show x (ix1 r) + ∑ j ∈ Finset.univ.filter (fun j => (vecDims wf).resultIdx? j idx = some (ix1 r)), upd j = _
  congr 1
  rw [Finset.sum_filter, sum_idx1]
  refine Finset.sum_congr rfl fun n _ => ?_
  simp only [vec_resultIdx_iff]

end Idealize.ShloMosaic.LibScatterRows

end
-- ==== Proof.RefScatter.lean ====
/-
  The reference's three segment sums are accumulating scatters of the flattened pixel rows at the flattened segment ids;
  here each is read at an index: entry `(r, c)` is the operand's entry plus the sum of the rows whose id is `r`.
-/
import proofs.«401834_j154618822672_2_alg».proof.ReferenceIdeal
import proofs.«401834_j154618822672_2_alg».proof.Proof.Gen.ReferenceIdeal
import proofs.«401834_j154618822672_2_alg».proof.Proof.LibScatterRows

noncomputable section

open scoped BigOperators

namespace Cert.ReferenceIdeal.Scatter

open Cert.ReferenceIdeal Cert.ReferenceIdeal.Gen Idealize.ShloMosaic Idealize.ShloMosaic.ValueIdx

theorem scatter_rows_apply (x : FVec Ideal S2052x16 .f32) (idx : IVec S4194304x1 32) (upd : FVec Ideal S4194304x16 .f32)
    (r : Fin 2052) (c : Fin 16) :
    Host.scatterAdd (F := Ideal) scatter_S2052x16_S4194304x1_S4194304x16_1_0_0_1 x idx upd (ix2 r c)
      = x (ix2 r c) + ∑ n : Fin 4194304, if (idx (ix2 n (0 : Fin 1))).toInt = (r.val : Int) then upd (ix2 n c) else 0 := by
  exact Idealize.ShloMosaic.LibScatterRows.scatterAdd_rows_apply _ x idx upd r c

theorem scatter_vec_apply (x : FVec Ideal S2052 .f32) (idx : IVec S4194304x1 32) (upd : FVec Ideal S4194304 .f32)
    (r : Fin 2052) :
    Host.scatterAdd (F := Ideal) scatter_S2052_S4194304x1_S4194304_n_0_0_1 x idx upd (ix1 r)
      = x (ix1 r) + ∑ n : Fin 4194304, if (idx (ix2 n (0 : Fin 1))).toInt = (r.val : Int) then upd (ix1 n) else 0 := by
  exact Idealize.ShloMosaic.LibScatterRows.scatterAdd_vec_apply _ x idx upd r

end Cert.ReferenceIdeal.Scatter

end
-- ==== Proof.RefSums.lean ====
/-
  The reference's three segment sums, read at an image's label slot.

  Slot `513 * b + j + 1` of the 2052 segments is label `j + 1` of image `b`. A row of the flattened pixel list lands there
  exactly when its id is `513 * b + j + 1`; with every label in 0..512 an id `label + 513 * b'` equals that only for
  `b' = b` and `label = j + 1`, so the slot's sum is the sum of the channel over the pixels of image `b` whose label word is
  `j + 1`: the same sum the kernel's accumulator holds, and its count the same count.
-/
import proofs.«401834_j154618822672_2_alg».proof.Proof.RefIds
import proofs.«401834_j154618822672_2_alg».proof.Proof.RefScatter

noncomputable section

open scoped BigOperators

namespace Cert.ReferenceIdeal.Sums

open Cert.ReferenceIdeal Cert.ReferenceIdeal.Gen Cert.ReferenceIdeal.Ids Idealize.ShloMosaic Idealize.ShloMosaic.TcCoe Idealize.ShloMosaic.ValueIdx Cert.SegMean

/-- Label `j + 1` of image `b` among the 2052 segments. -/
def seg (b : Fin 4) (j : Fin 512) : Fin 2052 := ⟨513 * b.val + j.val + 1, by have := b.isLt; have := j.isLt; omega⟩

/-- The flattened pixel list is the four images' pixel lists one after the other: `(b, p) ↦ 1048576 * b + p` is a bijection. -/
private theorem flat_bij : Function.Bijective (fun bp : Fin 4 × Fin 1048576 => flat bp.1 bp.2) := by
  constructor
  · rintro ⟨b, p⟩ ⟨b', p'⟩ h
    have hv := congrArg Fin.val h
    simp only [flat_val] at hv
    have := p.isLt; have := p'.isLt
    have hb : b.val = b'.val := by omega
    have hp : p.val = p'.val := by omega
    exact Prod.ext (Fin.ext hb) (Fin.ext hp)
  · intro n
    obtain ⟨b, p, rfl⟩ := flat_surj n
    exact ⟨(b, p), rfl⟩

/-- So a sum over the flattened pixel list is the sum over the images of the sums over each image's pixels. -/
private theorem sum_flat (g : Fin 4194304 → EReal) :
    ∑ n : Fin 4194304, g n = ∑ b : Fin 4, ∑ p : Fin 1048576, g (flat b p) := by
  rw [← Fintype.sum_prod_type' (fun b p => g (flat b p))]
  exact (Fintype.sum_bijective (fun bp : Fin 4 × Fin 1048576 => flat bp.1 bp.2) flat_bij _ _ (fun _ => rfl)).symm

/-- A word in 0..512 is the word `j + 1` exactly when its signed value is `j + 1`. -/
private theorem word_eq_iff (w : BitVec 32) (h0 : 0 ≤ w.toInt) (h1 : w.toInt ≤ 512) (j : Fin 512) :
    BitVec.ofNat 32 j.val + 1#32 = w ↔ w.toInt = (j.val : Int) + 1 := by
  have hj := j.isLt
  constructor
  · rintro rfl
    rw [BitVec.toInt_eq_toNat_cond]
    simp only [BitVec.toNat_add, BitVec.toNat_ofNat]
    omega
  · intro h
    apply BitVec.eq_of_toInt_eq
    rw [h, BitVec.toInt_eq_toNat_cond]
    simp only [BitVec.toNat_add, BitVec.toNat_ofNat]
    omega

@[simp] private theorem seg_val (b : Fin 4) (j : Fin 512) : (seg b j).val = 513 * b.val + j.val + 1 := rfl

/-- The rows of the flattened pixel list whose id is slot `513 * b + j + 1` are the pixels of image `b` whose label word is
    `j + 1`: the sum of any per-row quantity over those rows is the sum over image `b`'s pixels of the quantity weighted by
    the label's 0-or-1 weight. -/
private theorem seg_sum (x2 : IVec S4x1x1024x1024 32) (hr : ∀ i, 0 ≤ (x2 i).toInt ∧ (x2 i).toInt ≤ 512)
    (upd : Fin 4194304 → EReal) (b : Fin 4) (j : Fin 512) :
    (∑ n : Fin 4194304, if (ReadP.val_main_v7 (F := Ideal) x2 (ix1 n)).toInt = ((seg b j).val : Int) then upd n else 0)
      = ∑ p : Fin 1048576, upd (flat b p) * hot (labelsOf x2 b p) j := by
  have hj := j.isLt
  rw [sum_flat, Finset.sum_eq_single b]
  · refine Finset.sum_congr rfl (fun p _ => ?_)
    have hl : 0 ≤ (labelsOf x2 b p).toInt ∧ (labelsOf x2 b p).toInt ≤ 512 := hr _
    rw [mul_hot, ids_toInt x2 hr b p, seg_val]
    by_cases hc : BitVec.ofNat 32 j.val + 1#32 = labelsOf x2 b p
    · rw [if_pos hc, if_pos]
      have := (word_eq_iff _ hl.1 hl.2 j).mp hc
      omega
    · rw [if_neg hc, if_neg]
      intro h
      exact hc ((word_eq_iff _ hl.1 hl.2 j).mpr (by omega))
  · intro b' _ hb'
    refine Finset.sum_eq_zero (fun p _ => ?_)
    have hl : 0 ≤ (labelsOf x2 b' p).toInt ∧ (labelsOf x2 b' p).toInt ≤ 512 := hr _
    rw [ids_toInt x2 hr b' p, seg_val, if_neg]
    intro h
    exact hb' (Fin.ext (by omega))
  · intro h
    exact absurd (Finset.mem_univ b) h

/-- The index column read at row `n` is the id vector at `n`. -/
private theorem idcol13 (x2 : IVec S4x1x1024x1024 32) (n : Fin 4194304) :
    ReadP.val_main_v13 (F := Ideal) x2 (ix2 n (0 : Fin 1)) = ReadP.val_main_v7 (F := Ideal) x2 (ix1 n) := by
  rw [ReadP.val_main_v13_apply]
  exact congrArg _ (funext fun d => match d with | ⟨0, _⟩ => rfl)
private theorem idcol16 (x2 : IVec S4x1x1024x1024 32) (n : Fin 4194304) :
    ReadP.val_main_v16 (F := Ideal) x2 (ix2 n (0 : Fin 1)) = ReadP.val_main_v7 (F := Ideal) x2 (ix1 n) := by
  rw [ReadP.val_main_v16_apply]
  exact congrArg _ (funext fun d => match d with | ⟨0, _⟩ => rfl)
private theorem idcol20 (x2 : IVec S4x1x1024x1024 32) (n : Fin 4194304) :
    ReadP.val_main_v20 (F := Ideal) x2 (ix2 n (0 : Fin 1)) = ReadP.val_main_v7 (F := Ideal) x2 (ix1 n) := by
  rw [ReadP.val_main_v20_apply]
  exact congrArg _ (funext fun d => match d with | ⟨0, _⟩ => rfl)

/-- The word `0x00000000` is the float 0. -/
private theorem ofBits_zero : Ideal.ofBits .f32 0x00000000#32 = 0 := by simp [Ideal.ofBits, Ideal.ieee]

/-- The word `0x3F800000` is the float 1. -/
private theorem ofBits_one_f32 : Ideal.ofBits .f32 0x3F800000#32 = 1 := by
  simp [Ideal.ofBits, Ideal.ieee, -EReal.coe_mul]; norm_num

theorem v14_apply (x0 : FVec Ideal S4x16x1024x1024 .f32) (x2 : IVec S4x1x1024x1024 32)
    (hr : ∀ i, 0 ≤ (x2 i).toInt ∧ (x2 i).toInt ≤ 512) (b : Fin 4) (j : Fin 512) (ch : Fin 16) :
    ReadP.val_main_v14 (F := Ideal) x0 x2 (ix2 (seg b j) ch) = sumOf x0 x2 b ch j := by
  unfold ReadP.val_main_v14
  rw [Scatter.scatter_rows_apply, ReadP.val_main_v12_apply, ReadP.val_main_cst_apply]
  show Ideal.ofBits .f32 0x00000000#32 + _ = _
  rw [ofBits_zero, zero_add]
  simp only [idcol13]
  rw [seg_sum x2 hr (fun n => ReadP.val_main_v9 (F := Ideal) x0 (ix2 n ch)) b j]
  unfold sumOf segSum
  exact Finset.sum_congr rfl (fun p _ => by rw [rows0_apply])
theorem v17_apply (x1 : FVec Ideal S4x16x1024x1024 .f32) (x2 : IVec S4x1x1024x1024 32)
    (hr : ∀ i, 0 ≤ (x2 i).toInt ∧ (x2 i).toInt ≤ 512) (b : Fin 4) (j : Fin 512) (ch : Fin 16) :
    ReadP.val_main_v17 (F := Ideal) x1 x2 (ix2 (seg b j) ch) = sumOf x1 x2 b ch j := by
  unfold ReadP.val_main_v17
  rw [Scatter.scatter_rows_apply, ReadP.val_main_v15_apply, ReadP.val_main_cst_0_apply]
  show Ideal.ofBits .f32 0x00000000#32 + _ = _
  rw [ofBits_zero, zero_add]
  simp only [idcol16]
  rw [seg_sum x2 hr (fun n => ReadP.val_main_v11 (F := Ideal) x1 (ix2 n ch)) b j]
  unfold sumOf segSum
  exact Finset.sum_congr rfl (fun p _ => by rw [rows1_apply])
theorem v21_apply (x2 : IVec S4x1x1024x1024 32)
    (hr : ∀ i, 0 ≤ (x2 i).toInt ∧ (x2 i).toInt ≤ 512) (b : Fin 4) (j : Fin 512) :
    ReadP.val_main_v21 (F := Ideal) x2 (ix1 (seg b j)) = countOf x2 b j := by
  unfold ReadP.val_main_v21
  rw [Scatter.scatter_vec_apply, ReadP.val_main_v19_apply, ReadP.val_main_cst_2_apply]
  show Ideal.ofBits .f32 0x00000000#32 + _ = _
  rw [ofBits_zero, zero_add]
  simp only [idcol20]
  rw [seg_sum x2 hr (fun n => ReadP.val_main_v18 (F := Ideal) (ix1 n)) b j]
  unfold countOf segSum
  refine Finset.sum_congr rfl (fun p _ => ?_)
  rw [ReadP.val_main_v18_apply, ReadP.val_main_cst_1_apply]
  show Ideal.ofBits .f32 0x3F800000#32 * _ = _
  rw [ofBits_one_f32]

end Cert.ReferenceIdeal.Sums

end
-- ==== Proof.RefValue.lean ====
/-
  The reference's three results as functions of the arguments: the slots' sums divided by the slots' counts floored at
  one, laid out row `512 * b + j`, column `ch`; and the label ids where the count is positive.
-/
import proofs.«401834_j154618822672_2_alg».proof.Proof.RefSums

noncomputable section

open scoped BigOperators

namespace Cert.ReferenceIdeal.Results

open Cert.ReferenceIdeal Cert.ReferenceIdeal.Gen Cert.ReferenceIdeal.Ids Cert.ReferenceIdeal.Sums Idealize.ShloMosaic Idealize.ShloMosaic.TcCoe Idealize.ShloMosaic.ValueIdx Cert.SegMean

/-- Row `r`, column `ch` of a float result reads the sums' slot of image `r / 512`, label `r % 512 + 1`, at column `ch`. -/
theorem idx_sum (r : Fin 2048) (ch : Fin 16) :
    ReadP.idx_main_v22 (ReadP.idx_main_v23 (ReadP.idx_main_v33 (ix2 r ch))) = ix2 (seg (imgOf r) (lblOf r)) ch := by
  have hr := r.isLt; have hc := ch.isLt
  funext a
  match a with
  | ⟨0, _⟩ => exact Fin.ext (by show ((((r.val * 16 + ch.val) / 8192) * 513 + (1 + (r.val * 16 + ch.val) / 16 % 512)) * 16 + (r.val * 16 + ch.val) % 16) / 16 = 513 * (r.val / 512) + r.val % 512 + 1; omega)
  | ⟨1, _⟩ => exact Fin.ext (by show ((((r.val * 16 + ch.val) / 8192) * 513 + (1 + (r.val * 16 + ch.val) / 16 % 512)) * 16 + (r.val * 16 + ch.val) % 16) % 16 = ch.val; omega)

/-- The divisor at row `r`, column `ch` reads the counts' slot of image `r / 512`, label `r % 512 + 1`. -/
theorem idx_cnt (r : Fin 2048) (ch : Fin 16) :
    ReadP.idx_main_v26 (ReadP.idx_main_v27 (ReadP.idx_main_v30 (ReadP.idx_main_v31 (ReadP.idx_main_v33 (ix2 r ch)))))
      = ix1 (seg (imgOf r) (lblOf r)) := by
  have hr := r.isLt; have hc := ch.isLt
  funext a
  match a with
  | ⟨0, _⟩ => exact Fin.ext (by show ((r.val * 16 + ch.val) / 8192) * 513 + (1 + (r.val * 16 + ch.val) / 16 % 512) = 513 * (r.val / 512) + r.val % 512 + 1; omega)

/-- Row `r` of the integer result reads the counts' slot of image `r / 512`, label `r % 512 + 1`. -/
theorem idx_cnt1 (r : Fin 2048) :
    ReadP.idx_main_v26 (ReadP.idx_main_v27 (ReadP.idx_main_v44 (ix1 r))) = ix1 (seg (imgOf r) (lblOf r)) := by
  have hr := r.isLt
  funext a
  match a with
  | ⟨0, _⟩ => exact Fin.ext (by show (r.val / 512) * 513 + (1 + r.val % 512) = 513 * (r.val / 512) + r.val % 512 + 1; omega)

theorem v33_eq (x0 : FVec Ideal S4x16x1024x1024 .f32) (x2 : IVec S4x1x1024x1024 32)
    (hr : ∀ i, 0 ≤ (x2 i).toInt ∧ (x2 i).toInt ≤ 512) :
    ReadP.val_main_v33 (F := Ideal) x0 x2 = meanRes x0 x2 := by
  funext i
  obtain ⟨r, ch, rfl⟩ : ∃ (r : Fin 2048) (ch : Fin 16), i = ix2 r ch := ⟨i 0, i 1, eq_ix2 i⟩
  rw [meanRes_ix2, ReadP.val_main_v33_apply, ReadP.val_main_v32_apply, ReadP.val_main_v23_apply, ReadP.val_main_v22_apply,
    ReadP.val_main_v31_apply, ReadP.val_main_v30_apply, ReadP.val_main_v29_apply, ReadP.val_main_v27_apply, ReadP.val_main_v26_apply,
    ReadP.val_main_v28_apply, ReadP.val_main_cst_3_apply, idx_sum, idx_cnt, v14_apply x0 x2 hr, v21_apply x2 hr]
  rfl
theorem v36_eq (x1 : FVec Ideal S4x16x1024x1024 .f32) (x2 : IVec S4x1x1024x1024 32)
    (hr : ∀ i, 0 ≤ (x2 i).toInt ∧ (x2 i).toInt ≤ 512) :
    ReadP.val_main_v36 (F := Ideal) x1 x2 = meanRes x1 x2 := by
  funext i
  obtain ⟨r, ch, rfl⟩ : ∃ (r : Fin 2048) (ch : Fin 16), i = ix2 r ch := ⟨i 0, i 1, eq_ix2 i⟩
  rw [meanRes_ix2, ReadP.val_main_v36_apply, ReadP.val_main_v35_apply, ReadP.val_main_v25_apply, ReadP.val_main_v24_apply,
    ReadP.val_main_v34_apply, ReadP.val_main_v30_apply, ReadP.val_main_v29_apply, ReadP.val_main_v27_apply, ReadP.val_main_v26_apply,
    ReadP.val_main_v28_apply, ReadP.val_main_cst_3_apply]
  rw [show ReadP.idx_main_v24 (ReadP.idx_main_v25 (ReadP.idx_main_v36 (ix2 r ch))) = ix2 (seg (imgOf r) (lblOf r)) ch from idx_sum r ch,
    show ReadP.idx_main_v26 (ReadP.idx_main_v27 (ReadP.idx_main_v30 (ReadP.idx_main_v34 (ReadP.idx_main_v36 (ix2 r ch)))))
      = ix1 (seg (imgOf r) (lblOf r)) from idx_cnt r ch, v17_apply x1 x2 hr, v21_apply x2 hr]
  rfl
theorem v44_eq (x2 : IVec S4x1x1024x1024 32)
    (hr : ∀ i, 0 ≤ (x2 i).toInt ∧ (x2 i).toInt ≤ 512) :
    ReadP.val_main_v44 (F := Ideal) x2 = idRes x2 := by
  funext i
  obtain ⟨r, rfl⟩ : ∃ (r : Fin 2048), i = ix1 r := ⟨i 0, eq_ix1 i⟩
  rw [idRes_ix1, ReadP.val_main_v44_apply, ReadP.val_main_v43_apply, ReadP.val_main_v41_apply, ReadP.val_main_v27_apply,
    ReadP.val_main_v26_apply, ReadP.val_main_v40_apply, ReadP.val_main_cst_5_apply, ReadP.val_main_call0_v1_apply,
    ReadP.val_main_v42_apply, ReadP.val_main_v39_apply, ReadP.val_main_v38_apply, ReadP.val_main_c_4_apply, ReadP.val_main_v37_apply,
    ReadP.val_main_call0_v2_apply, ReadP.val_main_call0_v0_apply, ReadP.val_main_c_6_apply, idx_cnt1, v21_apply x2 hr]
  rfl

end Cert.ReferenceIdeal.Results

end
-- ==== Proof.KernelTile.lean ====
/-
  One grid point's arithmetic, read at an index.

  The body stacks its blocks into 40 rows over the tile's 32768 pixels — rows 0..15 the 16 channels of the first
  float block, rows 16..31 those of the second, row 32 all ones, rows 33..39 zeros — and multiplies the stack with the
  512 × 32768 table whose entry (j, q) is 1 when pixel q's label word is j + 1 and 0 otherwise, contracting the pixel
  axis. A change of float format is the identity on the extended reals and the matrix product into a zero accumulator
  is the plain sum of products, so entry (r, j) of what the point adds to the carried 40 × 512 accumulator is
  `∑ q, stack r q * hot (label q) j`. The three stores of the last point copy rows 0..15, 16..31 and 32 out.
-/
import proofs.«401834_j154618822672_2_alg».proof.Proof.Gen.KernelIdeal.Skeleton
import proofs.«401834_j154618822672_2_alg».proof.Proof.SegSum
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.SegMean

/-- The 40 × 32768 stack of one point: the two float blocks, a row of ones, seven rows of zeros. -/
private def stack (x0 x1 : Vec Ideal S1x16x32768 .f32) : FVec Ideal S40x32768 .bf16 :=
  concatenate S40x32768 0
    [⟨S16x32768, truncf .bf16 (shapeCast S16x32768 x0 shapeCasts_S1x16x32768_S16x32768) bitsLt_bf16_f32⟩,
     ⟨S16x32768, truncf .bf16 (shapeCast S16x32768 x1 shapeCasts_S1x16x32768_S16x32768) bitsLt_bf16_f32⟩,
     ⟨S1x32768, broadcast S1x32768 (Scalar.ofBits (F := Ideal) .bf16 0x3F80#16)⟩,
     ⟨S7x32768, broadcast S7x32768 (Scalar.ofBits (F := Ideal) .bf16 0x0000#16)⟩]
    concatenates_S16x32768_S16x32768_S1x32768_S7x32768_S40x32768_d0

/-- The 512 × 32768 table of one point: entry (j, q) is the float of the bit "label word of pixel q is j + 1". -/
private def table (x2 : Vec Ideal S1x1x32768 .i32) : FVec Ideal S512x32768 .bf16 :=
  truncf .bf16
    (sitofp .f32
      (extui 32
        (cmpi .eq
          (addi (iota .tc S512x32768 32 [0] iota_S512x32768_d0_w32) (broadcast S512x32768 1#32))
          (broadcastTo S512x32768 (shapeCast S1x32768 x2 shapeCasts_S1x1x32768_S1x32768) broadcasts_S1x32768_S512x32768))
        natLt_1_32))
    bitsLt_bf16_f32

/-- The updated accumulator is the old one plus the product of the stack with the table. -/
private theorem pay2_eq (x0 x1 : Vec Ideal S1x16x32768 .f32) (x2 : Vec Ideal S1x1x32768 .i32) (acc : Vec Ideal S40x512 .f32) :
    k0_pay2 (F := Ideal) x0 x1 x2 acc
      = addf acc (matmul dot_S40x32768_S512x32768_S40x512_1_1_0_0_n_n none (stack x0 x1) (table x2)
          (constant (F := Ideal) S40x512 .f32 0x00000000#32)) := by
  unfold k0_pay2 stack table
  exact shapeCast_self _ _

/-- The operand indices of the product at output (r, j) and pixel q: (r, q) on the left, (j, q) on the right. -/
private theorem lhs_at (r : Fin 40) (j : Fin 512) (q : Fin 32768) :
    dot_S40x32768_S512x32768_S40x512_1_1_0_0_n_n.lhsIdx (ix2 r j)
      ((contrEquiv1 dot_S40x32768_S512x32768_S40x512_1_1_0_0_n_n 32768 rfl rfl).symm q) = ix2 r q := by
  have cq := contrEquiv1_symm_val dot_S40x32768_S512x32768_S40x512_1_1_0_0_n_n 32768 rfl rfl q
  funext ax; apply Fin.ext
  match ax with
  | ⟨0, _⟩ => simp [DotDims.lhsIdx, dot_S40x32768_S512x32768_S40x512_1_1_0_0_n_n]; rfl
  | ⟨1, _⟩ => simp [DotDims.lhsIdx, dot_S40x32768_S512x32768_S40x512_1_1_0_0_n_n]; exact cq

private theorem rhs_at (r : Fin 40) (j : Fin 512) (q : Fin 32768) :
    dot_S40x32768_S512x32768_S40x512_1_1_0_0_n_n.rhsIdx (ix2 r j)
      ((contrEquiv1 dot_S40x32768_S512x32768_S40x512_1_1_0_0_n_n 32768 rfl rfl).symm q) = ix2 j q := by
  have cq := contrEquiv1_symm_val dot_S40x32768_S512x32768_S40x512_1_1_0_0_n_n 32768 rfl rfl q
  funext ax; apply Fin.ext
  match ax with
  | ⟨0, _⟩ => simp [DotDims.rhsIdx, dot_S40x32768_S512x32768_S40x512_1_1_0_0_n_n]; rfl
  | ⟨1, _⟩ => simp [DotDims.rhsIdx, dot_S40x32768_S512x32768_S40x512_1_1_0_0_n_n]; exact cq

/-- The product into a zero accumulator, read at (r, j): the sum over the pixels of the products of the entries. -/
private theorem matmul_at (A : FVec Ideal S40x32768 .bf16) (B : FVec Ideal S512x32768 .bf16) (r : Fin 40) (j : Fin 512) :
    matmul dot_S40x32768_S512x32768_S40x512_1_1_0_0_n_n none A B (constant (F := Ideal) S40x512 .f32 0x00000000#32) (ix2 r j)
      = ∑ q : Fin 32768, A (ix2 r q) * B (ix2 j q) := by
  show FloatOps.matmul _ none A B _ (ix2 r j) = _
  rw [Ideal.matmul_constant_zero_apply,
    ← Equiv.sum_comp (contrEquiv1 dot_S40x32768_S512x32768_S40x512_1_1_0_0_n_n 32768 rfl rfl).symm]
  refine Finset.sum_congr rfl fun q _ => ?_
  rw [lhs_at, rhs_at]

/-- A one-bit word widened to 32 bits and converted signed: the bit as 1 or 0. -/
private theorem sitofp_bit (p : Prop) [Decidable p] :
    (FloatOps.sitofp (F := Ideal) .f32 ((if p then 1#1 else 0#1 : BitVec 1).setWidth 32) : EReal) = if p then 1 else 0 := by
  by_cases h : p
  · rw [if_pos h, if_pos h]
    show ((((1#1 : BitVec 1).setWidth 32).toInt : ℝ) : EReal) = 1
    have : ((1#1 : BitVec 1).setWidth 32).toInt = 1 := by decide
    rw [this]; norm_cast
  · rw [if_neg h, if_neg h]
    show ((((0#1 : BitVec 1).setWidth 32).toInt : ℝ) : EReal) = 0
    have : ((0#1 : BitVec 1).setWidth 32).toInt = 0 := by decide
    rw [this]; norm_cast

/-- The comparison's bit. -/
private theorem cmpi_eq_bit (a b : BitVec 32) : IntOp.cmpi .eq a b = if a = b then 1#1 else 0#1 := by
  unfold IntOp.cmpi
  by_cases h : a = b
  · rw [if_pos h]; subst h; simp
  · rw [if_neg h, show (a == b) = false from beq_eq_false_iff_ne.mpr h]; rfl

/-- The label row broadcast down the table's rows, at (j, q): pixel q's label word. -/
private theorem labels_at (x2 : Vec Ideal S1x1x32768 .i32) (j : Fin 512) (q : Fin 32768) :
    broadcastTo S512x32768 (shapeCast S1x32768 x2 shapeCasts_S1x1x32768_S1x32768) broadcasts_S1x32768_S512x32768 (ix2 j q)
      = x2 (ix3 (0 : Fin 1) (0 : Fin 1) q) := by
  refine (broadcastTo_apply _ _ (ix2 j q) (ix2 (0 : Fin 1) q)
    (fun a => match a with
      | ⟨0, _⟩ => by rw [if_pos (show S1x32768.size ⟨0, _⟩ = 1 from rfl)]; rfl
      | ⟨1, _⟩ => by rw [if_neg (by show ¬ (32768 : Nat) = 1; omega)]; rfl)).trans ?_
  exact shapeCast_apply _ _ (ix2 (0 : Fin 1) q) (ix3 (0 : Fin 1) (0 : Fin 1) q)
    (by rw [Shape.rowMajor_val_two, Shape.rowMajor_val_three]
        show (0 * 1 + 0) * 32768 + q.val = 0 * 32768 + q.val
        omega)

/-- The table at (j, q) is the weight of pixel q in label j + 1. -/
private theorem table_at (x2 : Vec Ideal S1x1x32768 .i32) (j : Fin 512) (q : Fin 32768) :
    table x2 (ix2 j q) = hot (x2 (ix3 (0 : Fin 1) (0 : Fin 1) q)) j := by
  unfold table hot
  rw [truncf_apply, sitofp_apply, extui_apply]
  show FloatOps.sitofp (F := Ideal) .f32
      ((IntOp.cmpi .eq (IntOp.addi (iota .tc S512x32768 32 [0] iota_S512x32768_d0_w32 (ix2 j q)) 1#32)
        (broadcastTo S512x32768 (shapeCast S1x32768 x2 shapeCasts_S1x1x32768_S1x32768) broadcasts_S1x32768_S512x32768 (ix2 j q))).setWidth 32) = _
  rw [iota_single_apply, labels_at, cmpi_eq_bit]
  exact sitofp_bit _

/-- A float block with its leading unit axis dropped, at (c, q): the block at (0, c, q). -/
private theorem block_at (x : Vec Ideal S1x16x32768 .f32) (c : Fin 16) (q : Fin 32768) :
    (truncf (F := Ideal) .bf16 (shapeCast S16x32768 x shapeCasts_S1x16x32768_S16x32768) bitsLt_bf16_f32 (ix2 c q) : EReal)
      = x (ix3 (0 : Fin 1) c q) := by
  rw [truncf_apply]
  exact shapeCast_apply _ _ (ix2 c q) (ix3 (0 : Fin 1) c q)
    (by rw [Shape.rowMajor_val_two, Shape.rowMajor_val_three]
        show (0 * 16 + c.val) * 32768 + q.val = c.val * 32768 + q.val
        omega)

/-- Rows 0..15 of the stack are the first block's channels. -/
private theorem stack_first (x0 x1 : Vec Ideal S1x16x32768 .f32) (c : Fin 16) (q : Fin 32768) :
    stack x0 x1 (ix2 (⟨c.val, by have := c.isLt; omega⟩ : Fin 40) q) = x0 (ix3 (0 : Fin 1) c q) := by
  unfold stack
  refine (concatenate_apply_piece (0 : Fin S40x32768.rank) _ _ _ 0 (by show (0 : Nat) < 4; omega) S16x32768 _ rfl rfl 0 rfl (ix2 c q)
    (fun b hb => match b, hb with
      | ⟨0, _⟩, hb => absurd rfl hb
      | ⟨1, _⟩, _ => rfl)
    (by show 0 + c.val = c.val; omega)).trans ?_
  exact block_at x0 c q

/-- Rows 16..31 are the second block's channels. -/
private theorem stack_second (x0 x1 : Vec Ideal S1x16x32768 .f32) (c : Fin 16) (q : Fin 32768) :
    stack x0 x1 (ix2 (⟨16 + c.val, by have := c.isLt; omega⟩ : Fin 40) q) = x1 (ix3 (0 : Fin 1) c q) := by
  unfold stack
  refine (concatenate_apply_piece (0 : Fin S40x32768.rank) _ _ _ 1 (by show (1 : Nat) < 4; omega) S16x32768 _ rfl rfl 16 rfl (ix2 c q)
    (fun b hb => match b, hb with
      | ⟨0, _⟩, hb => absurd rfl hb
      | ⟨1, _⟩, _ => rfl)
    (by show 16 + c.val = 16 + c.val; rfl)).trans ?_
  exact block_at x1 c q

/-- Row 32 is all ones. -/
private theorem stack_ones (x0 x1 : Vec Ideal S1x16x32768 .f32) (q : Fin 32768) :
    stack x0 x1 (ix2 (32 : Fin 40) q) = 1 := by
  unfold stack
  refine (concatenate_apply_piece (0 : Fin S40x32768.rank) _ _ _ 2 (by show (2 : Nat) < 4; omega) S1x32768 _ rfl rfl 32 rfl (ix2 (0 : Fin 1) q)
    (fun b hb => match b, hb with
      | ⟨0, _⟩, hb => absurd rfl hb
      | ⟨1, _⟩, _ => rfl)
    (by show 32 + 0 = 32; rfl)).trans ?_
  exact Ideal.ofBits_one_bf16

/-- Entry (r, j) of the updated accumulator: the old entry plus the sum over the tile's pixels of the stack's row r
    times pixel q's weight in label j + 1. -/
private theorem pay2_at (x0 x1 : Vec Ideal S1x16x32768 .f32) (x2 : Vec Ideal S1x1x32768 .i32) (acc : Vec Ideal S40x512 .f32)
    (r : Fin 40) (j : Fin 512) :
    k0_pay2 (F := Ideal) x0 x1 x2 acc (ix2 r j)
      = acc (ix2 r j) + ∑ q : Fin 32768, stack x0 x1 (ix2 r q) * hot (x2 (ix3 (0 : Fin 1) (0 : Fin 1) q)) j := by
  rw [pay2_eq]
  show acc (ix2 r j) + matmul dot_S40x32768_S512x32768_S40x512_1_1_0_0_n_n none (stack x0 x1) (table x2)
      (constant (F := Ideal) S40x512 .f32 0x00000000#32) (ix2 r j) = _
  rw [matmul_at]
  exact congrArg (acc (ix2 r j) + ·) (Finset.sum_congr rfl fun q _ => by rw [table_at])

/-- The reset value of the accumulator is zero everywhere. -/
theorem pay1_apply (y : S40x512.Idx) : k0_pay1 (F := Ideal) y = 0 := by
  unfold k0_pay1
  rw [shapeCast_self]
  exact Ideal.ofBits_zero_f32

/-- Rows 0..15 of the updated accumulator: the old entry plus the tile's sum of channel `c` of the first block over label `j + 1`. -/
theorem pay2_first (x0 x1 : Vec Ideal S1x16x32768 .f32) (x2 : Vec Ideal S1x1x32768 .i32) (acc : Vec Ideal S40x512 .f32)
    (c : Fin 16) (j : Fin 512) :
    k0_pay2 (F := Ideal) x0 x1 x2 acc (ix2 (⟨c.val, by have := c.isLt; omega⟩ : Fin 40) j)
      = acc (ix2 (⟨c.val, by have := c.isLt; omega⟩ : Fin 40) j)
        + ∑ q : Fin 32768, x0 (ix3 (0 : Fin 1) c q) * hot (x2 (ix3 (0 : Fin 1) (0 : Fin 1) q)) j := by
  rw [pay2_at]
  exact congrArg (acc _ + ·) (Finset.sum_congr rfl fun q _ => by rw [stack_first])

/-- Rows 16..31: the same with the second block. -/
theorem pay2_second (x0 x1 : Vec Ideal S1x16x32768 .f32) (x2 : Vec Ideal S1x1x32768 .i32) (acc : Vec Ideal S40x512 .f32)
    (c : Fin 16) (j : Fin 512) :
    k0_pay2 (F := Ideal) x0 x1 x2 acc (ix2 (⟨16 + c.val, by have := c.isLt; omega⟩ : Fin 40) j)
      = acc (ix2 (⟨16 + c.val, by have := c.isLt; omega⟩ : Fin 40) j)
        + ∑ q : Fin 32768, x1 (ix3 (0 : Fin 1) c q) * hot (x2 (ix3 (0 : Fin 1) (0 : Fin 1) q)) j := by
  rw [pay2_at]
  exact congrArg (acc _ + ·) (Finset.sum_congr rfl fun q _ => by rw [stack_second])

/-- Row 32: the old entry plus the tile's pixel count of label `j + 1`. -/
theorem pay2_ones (x0 x1 : Vec Ideal S1x16x32768 .f32) (x2 : Vec Ideal S1x1x32768 .i32) (acc : Vec Ideal S40x512 .f32)
    (j : Fin 512) :
    k0_pay2 (F := Ideal) x0 x1 x2 acc (ix2 (32 : Fin 40) j)
      = acc (ix2 (32 : Fin 40) j)
        + ∑ q : Fin 32768, (1 : EReal) * hot (x2 (ix3 (0 : Fin 1) (0 : Fin 1) q)) j := by
  rw [pay2_at]
  exact congrArg (acc _ + ·) (Finset.sum_congr rfl fun q _ => by rw [stack_ones])

/-- The last point's three stores: rows 0..15, rows 16..31 and row 32 of the accumulator. -/
theorem pay3_apply (v : Vec Ideal S40x512 .f32) (c : Fin 16) (j : Fin 512) :
    k0_pay3 (F := Ideal) v (ix3 (0 : Fin 1) c j) = v (ix2 (⟨c.val, by have := c.isLt; omega⟩ : Fin 40) j) := by
  unfold k0_pay3
  -- the cast that adds the leading unit axis reads (0, c, j) at (c, j); the slice at offset (0, 0) reads that at (c, j)
  refine (shapeCast_apply _ _ (ix3 (0 : Fin 1) c j) (ix2 c j)
    (by rw [Shape.rowMajor_val_two, Shape.rowMajor_val_three]
        show c.val * 512 + j.val = (0 * 16 + c.val) * 512 + j.val
        omega)).trans ?_
  exact extractStridedSlice_apply _ _ _ (ix2 c j) _
    (fun a => match a with
      | ⟨0, _⟩ => by show c.val = 0 + c.val; omega
      | ⟨1, _⟩ => by show j.val = 0 + j.val; omega)
theorem pay4_apply (v : Vec Ideal S40x512 .f32) (c : Fin 16) (j : Fin 512) :
    k0_pay4 (F := Ideal) v (ix3 (0 : Fin 1) c j) = v (ix2 (⟨16 + c.val, by have := c.isLt; omega⟩ : Fin 40) j) := by
  unfold k0_pay4
  -- the same with the slice at offset (16, 0)
  refine (shapeCast_apply _ _ (ix3 (0 : Fin 1) c j) (ix2 c j)
    (by rw [Shape.rowMajor_val_two, Shape.rowMajor_val_three]
        show c.val * 512 + j.val = (0 * 16 + c.val) * 512 + j.val
        omega)).trans ?_
  exact extractStridedSlice_apply _ _ _ (ix2 c j) _
    (fun a => match a with
      | ⟨0, _⟩ => by show 16 + c.val = 16 + c.val; rfl
      | ⟨1, _⟩ => by show j.val = 0 + j.val; omega)
theorem pay5_apply (v : Vec Ideal S40x512 .f32) (j : Fin 512) :
    k0_pay5 (F := Ideal) v (ix3 (0 : Fin 1) (0 : Fin 1) j) = v (ix2 (32 : Fin 40) j) := by
  unfold k0_pay5
  -- the one-row slice at offset (32, 0)
  refine (shapeCast_apply _ _ (ix3 (0 : Fin 1) (0 : Fin 1) j) (ix2 (0 : Fin 1) j)
    (by rw [Shape.rowMajor_val_two, Shape.rowMajor_val_three]
        show 0 * 512 + j.val = (0 * 1 + 0) * 512 + j.val
        omega)).trans ?_
  exact extractStridedSlice_apply _ _ _ (ix2 (0 : Fin 1) j) _
    (fun a => match a with
      | ⟨0, _⟩ => by show 32 = 32 + 0; rfl
      | ⟨1, _⟩ => by show j.val = 0 + j.val; omega)

end Cert.KernelIdeal.Tile

end
-- ==== Proof.KernelAcc.lean ====
/-
  The carried accumulator, point by point.

  The grid has 4 × 32 points, position `n` being image `n / 32`, tile `n % 32`. At an image's first tile the accumulator is
  reset to zero and the tile's 40 × 512 contribution added; at every later tile the contribution is added to what the
  point before left; at the image's last tile (`n % 32 = 31`) rows 0..15, 16..31 and 32 are also copied to the three
  outputs. So after position `n` the accumulator holds the sum of the contributions of positions `n - n % 32 .. n`
  (induction on `n`, one step per control case), and what an image's last point writes to the outputs is the sum of the
  contributions of the image's 32 tiles.
-/
import proofs.«401834_j154618822672_2_alg».proof.Proof.Gen.KernelIdeal.Frame
import proofs.«401834_j154618822672_2_alg».proof.Proof.KernelTile

noncomputable section

open scoped BigOperators

namespace Cert.KernelIdeal.Acc

open Cert.KernelIdeal Cert.KernelIdeal.Gen Idealize.ShloMosaic Idealize.ShloMosaic.TcCoe Idealize.ShloMosaic.ValueIdx Idealize.SL.Sem Cert.SegMean
open Idealize.ShloMosaic.Tactic

/-! ## What each control case leaves, as values

  Every load and store of the body goes through a whole-block rectangle at the zero offsets, so a load reads the
  buffer's contents, the last store to a buffer leaves its payload, and a load after a store reads that payload. -/

section Pieces

variable {F : FTy → Type} [FloatOps F]

/-- A whole-block rectangle starts at the zero offsets. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A later tile that is not the image's last leaves the update of what the point before left. -/
theorem scr_B (c : Dev nD) (i : grid0.Coords) (a2 : Memref sig .tc .vmem S1x16x32768 .f32) (h2 : a2.IsWhole) (a3 : Memref sig .tc .vmem S1x16x32768 .f32) (h3 : a3.IsWhole) (a4 : Memref sig .tc .vmem S1x1x32768 .i32) (h4 : a4.IsWhole) (a5 : Memref sig .tc .vmem S1x16x512 .f32) (h5 : a5.IsWhole) (a6 : Memref sig .tc .vmem S1x16x512 .f32) (h6 : a6.IsWhole) (a7 : Memref sig .tc .vmem S1x1x512 .f32) (h7 : a7.IsWhole) (a8 : Memref sig .tc .vmem S40x512 .f32) (h8 : a8.IsWhole) (hc0 : ¬cond0_0 i) (hc1 : ¬cond0_1 i) (x0 : Vec F S1x16x32768 .f32) (x1 : Vec F S1x16x32768 .f32) (x2 : Vec F S1x1x32768 .i32) (xs0 : Vec F S40x512 .f32) :
    sout0_B_0 c i a2 h2 a3 h3 a4 h4 a5 h5 a6 h6 a7 h7 a8 h8 hc0 hc1 x0 x1 x2 xs0 = k0_pay2 x0 x1 x2 xs0 := by
  unfold sout0_B_0
  rw [View.read_writes_eq_canon _ _ _ (scover0_B_0 c i a2 h2 a3 h3 a4 h4 a5 h5 a6 h6 a7 h7 a8 h8 hc0 hc1 x0 x1 x2 xs0)]
  unfold kernelRun0_B
  dsimp only
  sl_unfold_words
  rw [View.canon_unit_zero hz2]
  simp only [View.readAt_eq_ld, h2.read_unread, h3.read_unread, h4.read_unread, h8.read_unread, View.ld_unit_zero (S := S1x16x32768) hz3, View.ld_unit_zero (S := S1x1x32768) hz3, View.ld_unit_zero (S := S40x512) hz2, View.readCov_unit_zero (S := S40x512) _ hz2]

/-- An image's first tile stores zero, reads it back and leaves the update of zero. -/
theorem scr_A (c : Dev nD) (i : grid0.Coords) (a2 : Memref sig .tc .vmem S1x16x32768 .f32) (h2 : a2.IsWhole) (a3 : Memref sig .tc .vmem S1x16x32768 .f32) (h3 : a3.IsWhole) (a4 : Memref sig .tc .vmem S1x1x32768 .i32) (h4 : a4.IsWhole) (a5 : Memref sig .tc .vmem S1x16x512 .f32) (h5 : a5.IsWhole) (a6 : Memref sig .tc .vmem S1x16x512 .f32) (h6 : a6.IsWhole) (a7 : Memref sig .tc .vmem S1x1x512 .f32) (h7 : a7.IsWhole) (a8 : Memref sig .tc .vmem S40x512 .f32) (h8 : a8.IsWhole) (hc0 : cond0_0 i) (hc1 : ¬cond0_1 i) (x0 : Vec F S1x16x32768 .f32) (x1 : Vec F S1x16x32768 .f32) (x2 : Vec F S1x1x32768 .i32) :
    sout0_A_0 c i a2 h2 a3 h3 a4 h4 a5 h5 a6 h6 a7 h7 a8 h8 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S40x512) hz2]
  simp only [View.readAt_eq_ld, h2.read_unread, h3.read_unread, h4.read_unread, h8.read_unread, View.ld_unit_zero (S := S1x16x32768) hz3, View.ld_unit_zero (S := S1x1x32768) hz3, View.ld_unit_zero (S := S40x512) hz2, View.readCov_unit_zero (S := S40x512) _ hz2]

/-- An image's last tile leaves the same update in the accumulator, -/
theorem scr_C (c : Dev nD) (i : grid0.Coords) (a2 : Memref sig .tc .vmem S1x16x32768 .f32) (h2 : a2.IsWhole) (a3 : Memref sig .tc .vmem S1x16x32768 .f32) (h3 : a3.IsWhole) (a4 : Memref sig .tc .vmem S1x1x32768 .i32) (h4 : a4.IsWhole) (a5 : Memref sig .tc .vmem S1x16x512 .f32) (h5 : a5.IsWhole) (a6 : Memref sig .tc .vmem S1x16x512 .f32) (h6 : a6.IsWhole) (a7 : Memref sig .tc .vmem S1x1x512 .f32) (h7 : a7.IsWhole) (a8 : Memref sig .tc .vmem S40x512 .f32) (h8 : a8.IsWhole) (hc0 : ¬cond0_0 i) (hc1 : cond0_1 i) (x0 : Vec F S1x16x32768 .f32) (x1 : Vec F S1x16x32768 .f32) (x2 : Vec F S1x1x32768 .i32) (xs0 : Vec F S40x512 .f32) :
    sout0_C_0 c i a2 h2 a3 h3 a4 h4 a5 h5 a6 h6 a7 h7 a8 h8 hc0 hc1 x0 x1 x2 xs0 = k0_pay2 x0 x1 x2 xs0 := by
  unfold sout0_C_0
  rw [View.read_writes_eq_canon _ _ _ (scover0_C_0 c i a2 h2 a3 h3 a4 h4 a5 h5 a6 h6 a7 h7 a8 h8 hc0 hc1 x0 x1 x2 xs0)]
  unfold kernelRun0_C
  dsimp only
  sl_unfold_words
  rw [View.canon_unit_zero hz2]
  simp only [View.readAt_eq_ld, h2.read_unread, h3.read_unread, h4.read_unread, h8.read_unread, View.ld_unit_zero (S := S1x16x32768) hz3, View.ld_unit_zero (S := S1x1x32768) hz3, View.ld_unit_zero (S := S40x512) hz2, View.readCov_unit_zero (S := S40x512) _ hz2]

/-- and stores to the three outputs the row ranges of the accumulator it has just updated (read back after the store). -/
theorem out_C3 (c : Dev nD) (i : grid0.Coords) (a2 : Memref sig .tc .vmem S1x16x32768 .f32) (h2 : a2.IsWhole) (a3 : Memref sig .tc .vmem S1x16x32768 .f32) (h3 : a3.IsWhole) (a4 : Memref sig .tc .vmem S1x1x32768 .i32) (h4 : a4.IsWhole) (a5 : Memref sig .tc .vmem S1x16x512 .f32) (h5 : a5.IsWhole) (a6 : Memref sig .tc .vmem S1x16x512 .f32) (h6 : a6.IsWhole) (a7 : Memref sig .tc .vmem S1x1x512 .f32) (h7 : a7.IsWhole) (a8 : Memref sig .tc .vmem S40x512 .f32) (h8 : a8.IsWhole) (hc0 : ¬cond0_0 i) (hc1 : cond0_1 i) (x0 : Vec F S1x16x32768 .f32) (x1 : Vec F S1x16x32768 .f32) (x2 : Vec F S1x1x32768 .i32) (xs0 : Vec F S40x512 .f32) :
    out0_C_3 c i a2 h2 a3 h3 a4 h4 a5 h5 a6 h6 a7 h7 a8 h8 hc0 hc1 x0 x1 x2 xs0 = k0_pay3 (k0_pay2 x0 x1 x2 xs0) := by
  unfold out0_C_3
  rw [View.read_writes_eq_canon _ _ _ (cover0_C_3 c i a2 h2 a3 h3 a4 h4 a5 h5 a6 h6 a7 h7 a8 h8 hc0 hc1 x0 x1 x2 xs0)]
  unfold kernelRun0_C
  dsimp only
  sl_unfold_words
  rw [View.canon_unit_zero hz3]
  simp only [View.readAt_eq_ld, h2.read_unread, h3.read_unread, h4.read_unread, h8.read_unread, View.ld_unit_zero (S := S1x16x32768) hz3, View.ld_unit_zero (S := S1x1x32768) hz3, View.ld_unit_zero (S := S40x512) hz2, View.readCov_unit_zero (S := S40x512) _ hz2]
theorem out_C4 (c : Dev nD) (i : grid0.Coords) (a2 : Memref sig .tc .vmem S1x16x32768 .f32) (h2 : a2.IsWhole) (a3 : Memref sig .tc .vmem S1x16x32768 .f32) (h3 : a3.IsWhole) (a4 : Memref sig .tc .vmem S1x1x32768 .i32) (h4 : a4.IsWhole) (a5 : Memref sig .tc .vmem S1x16x512 .f32) (h5 : a5.IsWhole) (a6 : Memref sig .tc .vmem S1x16x512 .f32) (h6 : a6.IsWhole) (a7 : Memref sig .tc .vmem S1x1x512 .f32) (h7 : a7.IsWhole) (a8 : Memref sig .tc .vmem S40x512 .f32) (h8 : a8.IsWhole) (hc0 : ¬cond0_0 i) (hc1 : cond0_1 i) (x0 : Vec F S1x16x32768 .f32) (x1 : Vec F S1x16x32768 .f32) (x2 : Vec F S1x1x32768 .i32) (xs0 : Vec F S40x512 .f32) :
    out0_C_4 c i a2 h2 a3 h3 a4 h4 a5 h5 a6 h6 a7 h7 a8 h8 hc0 hc1 x0 x1 x2 xs0 = k0_pay4 (k0_pay2 x0 x1 x2 xs0) := by
  unfold out0_C_4
  rw [View.read_writes_eq_canon _ _ _ (cover0_C_4 c i a2 h2 a3 h3 a4 h4 a5 h5 a6 h6 a7 h7 a8 h8 hc0 hc1 x0 x1 x2 xs0)]
  unfold kernelRun0_C
  dsimp only
  sl_unfold_words
  rw [View.canon_unit_zero hz3]
  simp only [View.readAt_eq_ld, h2.read_unread, h3.read_unread, h4.read_unread, h8.read_unread, View.ld_unit_zero (S := S1x16x32768) hz3, View.ld_unit_zero (S := S1x1x32768) hz3, View.ld_unit_zero (S := S40x512) hz2, View.readCov_unit_zero (S := S40x512) _ hz2]
theorem out_C5 (c : Dev nD) (i : grid0.Coords) (a2 : Memref sig .tc .vmem S1x16x32768 .f32) (h2 : a2.IsWhole) (a3 : Memref sig .tc .vmem S1x16x32768 .f32) (h3 : a3.IsWhole) (a4 : Memref sig .tc .vmem S1x1x32768 .i32) (h4 : a4.IsWhole) (a5 : Memref sig .tc .vmem S1x16x512 .f32) (h5 : a5.IsWhole) (a6 : Memref sig .tc .vmem S1x16x512 .f32) (h6 : a6.IsWhole) (a7 : Memref sig .tc .vmem S1x1x512 .f32) (h7 : a7.IsWhole) (a8 : Memref sig .tc .vmem S40x512 .f32) (h8 : a8.IsWhole) (hc0 : ¬cond0_0 i) (hc1 : cond0_1 i) (x0 : Vec F S1x16x32768 .f32) (x1 : Vec F S1x16x32768 .f32) (x2 : Vec F S1x1x32768 .i32) (xs0 : Vec F S40x512 .f32) :
    out0_C_5 c i a2 h2 a3 h3 a4 h4 a5 h5 a6 h6 a7 h7 a8 h8 hc0 hc1 x0 x1 x2 xs0 = k0_pay5 (k0_pay2 x0 x1 x2 xs0) := by
  unfold out0_C_5
  rw [View.read_writes_eq_canon _ _ _ (cover0_C_5 c i a2 h2 a3 h3 a4 h4 a5 h5 a6 h6 a7 h7 a8 h8 hc0 hc1 x0 x1 x2 xs0)]
  unfold kernelRun0_C
  dsimp only
  sl_unfold_words
  rw [View.canon_unit_zero hz3]
  simp only [View.readAt_eq_ld, h2.read_unread, h3.read_unread, h4.read_unread, h8.read_unread, View.ld_unit_zero (S := S1x16x32768) hz3, View.ld_unit_zero (S := S1x1x32768) hz3, View.ld_unit_zero (S := S40x512) hz2, View.readCov_unit_zero (S := S40x512) _ hz2]

end Pieces

/-! ## A value reset at each image's first tile and added to at every later one is the sum over the image's tiles so far -/

/-- If `a` is `f n` at the positions `n ≡ 0 (mod 32)` and `a (n - 1) + f n` at the others, then `a n` is the sum of `f`
    over the positions `n - n % 32 .. n`: induction on `n`; at a later tile `(n + 1) % 32 = n % 32 + 1` and the image's
    first position is the same for `n` and `n + 1`, so the sum gains exactly the last term. -/
theorem sum_of_steps (N : ℕ) (a : (n : ℕ) → n < N → EReal) (f : ℕ → EReal)
    (hreset : ∀ (n : ℕ) (hn : n < N), n % 32 = 0 → a n hn = f n)
    (hstep : ∀ (n : ℕ) (hn : n < N), ¬ n % 32 = 0 → a n hn = a (n - 1) (Nat.lt_of_le_of_lt (Nat.sub_le _ _) hn) + f n) :
    ∀ (n : ℕ) (hn : n < N), a n hn = ∑ k ∈ Finset.range (n % 32 + 1), f (n - n % 32 + k) := by
  intro n
  induction n with
  | zero =>
    intro hn
    rw [hreset 0 hn (Nat.zero_mod _)]
    simp
  | succ n ih =>
    intro hn
    by_cases h0 : (n + 1) % 32 = 0
    · rw [hreset (n + 1) hn h0, h0]
      simp
    · have hm : (n + 1) % 32 = n % 32 + 1 := by omega
      have hb : n + 1 - (n % 32 + 1) = n - n % 32 := by omega
      have hl : n - n % 32 + (n % 32 + 1) = n + 1 := by omega
      refine (hstep (n + 1) hn h0).trans ?_
      show a n _ + f (n + 1) = _
      rw [ih (Nat.lt_of_succ_lt hn), hm, hb, Finset.sum_range_succ _ (n % 32 + 1), hl]

variable (m : (ℓ : Loc nD τ sig) → Buf (Elt Ideal) ℓ)

/-- The three input blocks at a grid point, at their literal types. -/
abbrev blk0 (c : Dev nD) (t : Fin cfg0.N) : Vec Ideal S1x16x32768 .f32 := iblk m c 0 t
abbrev blk1 (c : Dev nD) (t : Fin cfg0.N) : Vec Ideal S1x16x32768 .f32 := iblk m c 1 t
abbrev blk2 (c : Dev nD) (t : Fin cfg0.N) : Vec Ideal S1x1x32768 .i32 := iblk m c 2 t

/-- What grid position `pos` adds to accumulator entry (channel row, label): the tile's sum of the channel over the label's
    pixels, for a row of the first block, a row of the second block, and the row of ones (zero past the grid). -/
def tileFirst (c : Dev nD) (pos : ℕ) (ch : Fin 16) (j : Fin 512) : EReal :=
  if h : pos < cfg0.N then ∑ q : Fin 32768, blk0 m c ⟨pos, h⟩ (ix3 (0 : Fin 1) ch q) * hot (blk2 m c ⟨pos, h⟩ (ix3 (0 : Fin 1) (0 : Fin 1) q)) j else 0
def tileSecond (c : Dev nD) (pos : ℕ) (ch : Fin 16) (j : Fin 512) : EReal :=
  if h : pos < cfg0.N then ∑ q : Fin 32768, blk1 m c ⟨pos, h⟩ (ix3 (0 : Fin 1) ch q) * hot (blk2 m c ⟨pos, h⟩ (ix3 (0 : Fin 1) (0 : Fin 1) q)) j else 0
def tileOnes (c : Dev nD) (pos : ℕ) (j : Fin 512) : EReal :=
  if h : pos < cfg0.N then ∑ q : Fin 32768, (1 : EReal) * hot (blk2 m c ⟨pos, h⟩ (ix3 (0 : Fin 1) (0 : Fin 1) q)) j else 0

/-! ## The accumulator after a point, from the accumulator after the point before -/

/-- After an image's first tile: the update of the zero block. -/
theorem scr_reset (c : Dev nD) (n : ℕ) (hn : n < cfg0.N) (h0 : n % 32 = 0) :
    (outsAt0 (F := Ideal) m c n hn).2.2.2
      = k0_pay2 (F := Ideal) (blk0 m c ⟨n, hn⟩) (blk1 m c ⟨n, hn⟩) (blk2 m c ⟨n, hn⟩) (k0_pay1 (F := Ideal)) := by
  have h1 : ¬ n % 32 = 31 := by omega
  rw [outsAt0_A m c ⟨n, hn⟩ h0 h1]; dsimp only
  exact scr_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)

/-- After a later tile, the image's last or not: the update of what the point before left. -/
theorem scr_step (c : Dev nD) (n : ℕ) (hn : n < cfg0.N) (h0 : ¬ n % 32 = 0) :
    (outsAt0 (F := Ideal) m c n hn).2.2.2
      = k0_pay2 (F := Ideal) (blk0 m c ⟨n, hn⟩) (blk1 m c ⟨n, hn⟩) (blk2 m c ⟨n, hn⟩) ((outsAt0 (F := Ideal) m c (n - 1) (Nat.lt_of_le_of_lt (Nat.sub_le _ _) hn)).2.2.2) := by
  by_cases h1 : n % 32 = 31
  · rw [outsAt0_C m c ⟨n, hn⟩ h0 h1]; dsimp only
    exact scr_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) ((outsAt0 (F := Ideal) m c (n - 1) (Nat.lt_of_le_of_lt (Nat.sub_le _ _) hn)).2.2.2)
  · rw [outsAt0_B m c ⟨n, hn⟩ h0 h1]; dsimp only
    exact scr_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) ((outsAt0 (F := Ideal) m c (n - 1) (Nat.lt_of_le_of_lt (Nat.sub_le _ _) hn)).2.2.2)

/-- At an image's last tile the three outputs receive the row ranges of the accumulator the point leaves. -/
theorem out3_eq (c : Dev nD) (t : Fin cfg0.N) (h : t.val % 32 = 31) :
    (outsAt0 (F := Ideal) m c t.val t.isLt).1 = k0_pay3 (F := Ideal) ((outsAt0 (F := Ideal) m c t.val t.isLt).2.2.2) := by
  have h0 : ¬ t.val % 32 = 0 := by omega
  rw [outsAt0_C m c t h0 h]; dsimp only
  exact (out_C3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h) (iblk m c 0 t) (iblk m c 1 t) (iblk m c 2 t) ((outsAt0 (F := Ideal) m c (t.val - 1) (Nat.lt_of_le_of_lt (Nat.sub_le _ _) t.isLt)).2.2.2)).trans
    (congrArg (k0_pay3 (F := Ideal)) (scr_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h) (iblk m c 0 t) (iblk m c 1 t) (iblk m c 2 t) ((outsAt0 (F := Ideal) m c (t.val - 1) (Nat.lt_of_le_of_lt (Nat.sub_le _ _) t.isLt)).2.2.2)).symm)
theorem out4_eq (c : Dev nD) (t : Fin cfg0.N) (h : t.val % 32 = 31) :
    (outsAt0 (F := Ideal) m c t.val t.isLt).2.1 = k0_pay4 (F := Ideal) ((outsAt0 (F := Ideal) m c t.val t.isLt).2.2.2) := by
  have h0 : ¬ t.val % 32 = 0 := by omega
  rw [outsAt0_C m c t h0 h]; dsimp only
  exact (out_C4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h) (iblk m c 0 t) (iblk m c 1 t) (iblk m c 2 t) ((outsAt0 (F := Ideal) m c (t.val - 1) (Nat.lt_of_le_of_lt (Nat.sub_le _ _) t.isLt)).2.2.2)).trans
    (congrArg (k0_pay4 (F := Ideal)) (scr_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h) (iblk m c 0 t) (iblk m c 1 t) (iblk m c 2 t) ((outsAt0 (F := Ideal) m c (t.val - 1) (Nat.lt_of_le_of_lt (Nat.sub_le _ _) t.isLt)).2.2.2)).symm)
theorem out5_eq (c : Dev nD) (t : Fin cfg0.N) (h : t.val % 32 = 31) :
    (outsAt0 (F := Ideal) m c t.val t.isLt).2.2.1 = k0_pay5 (F := Ideal) ((outsAt0 (F := Ideal) m c t.val t.isLt).2.2.2) := by
  have h0 : ¬ t.val % 32 = 0 := by omega
  rw [outsAt0_C m c t h0 h]; dsimp only
  exact (out_C5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h) (iblk m c 0 t) (iblk m c 1 t) (iblk m c 2 t) ((outsAt0 (F := Ideal) m c (t.val - 1) (Nat.lt_of_le_of_lt (Nat.sub_le _ _) t.isLt)).2.2.2)).trans
    (congrArg (k0_pay5 (F := Ideal)) (scr_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h) (iblk m c 0 t) (iblk m c 1 t) (iblk m c 2 t) ((outsAt0 (F := Ideal) m c (t.val - 1) (Nat.lt_of_le_of_lt (Nat.sub_le _ _) t.isLt)).2.2.2)).symm)

/-! ## The invariant -/

/-- After position `n` the accumulator's rows hold the sums of the contributions of the image's tiles so far. -/
theorem acc_first (c : Dev nD) (n : ℕ) (hn : n < cfg0.N) (ch : Fin 16) (j : Fin 512) :
    (outsAt0 (F := Ideal) m c n hn).2.2.2 (ix2 (⟨ch.val, by have := ch.isLt; omega⟩ : Fin 40) j)
      = ∑ k ∈ Finset.range (n % 32 + 1), tileFirst m c (n - n % 32 + k) ch j := by
  refine sum_of_steps cfg0.N
    (fun n hn => (outsAt0 (F := Ideal) m c n hn).2.2.2 (ix2 (⟨ch.val, by have := ch.isLt; omega⟩ : Fin 40) j))
    (fun pos => tileFirst m c pos ch j) ?_ ?_ n hn
  · intro n hn h0
    show (outsAt0 (F := Ideal) m c n hn).2.2.2 (ix2 (⟨ch.val, by have := ch.isLt; omega⟩ : Fin 40) j) = tileFirst m c n ch j
    rw [scr_reset m c n hn h0]
    refine (Tile.pay2_first (blk0 m c ⟨n, hn⟩) (blk1 m c ⟨n, hn⟩) (blk2 m c ⟨n, hn⟩) (k0_pay1 (F := Ideal)) ch j).trans ?_
    rw [Tile.pay1_apply, zero_add, tileFirst, dif_pos hn]
  · intro n hn h0
    show (outsAt0 (F := Ideal) m c n hn).2.2.2 (ix2 (⟨ch.val, by have := ch.isLt; omega⟩ : Fin 40) j)
      = ((outsAt0 (F := Ideal) m c (n - 1) (Nat.lt_of_le_of_lt (Nat.sub_le _ _) hn)).2.2.2) (ix2 (⟨ch.val, by have := ch.isLt; omega⟩ : Fin 40) j) + tileFirst m c n ch j
    rw [scr_step m c n hn h0]
    refine (Tile.pay2_first (blk0 m c ⟨n, hn⟩) (blk1 m c ⟨n, hn⟩) (blk2 m c ⟨n, hn⟩) ((outsAt0 (F := Ideal) m c (n - 1) (Nat.lt_of_le_of_lt (Nat.sub_le _ _) hn)).2.2.2) ch j).trans ?_
    rw [tileFirst, dif_pos hn]
theorem acc_second (c : Dev nD) (n : ℕ) (hn : n < cfg0.N) (ch : Fin 16) (j : Fin 512) :
    (outsAt0 (F := Ideal) m c n hn).2.2.2 (ix2 (⟨16 + ch.val, by have := ch.isLt; omega⟩ : Fin 40) j)
      = ∑ k ∈ Finset.range (n % 32 + 1), tileSecond m c (n - n % 32 + k) ch j := by
  refine sum_of_steps cfg0.N
    (fun n hn => (outsAt0 (F := Ideal) m c n hn).2.2.2 (ix2 (⟨16 + ch.val, by have := ch.isLt; omega⟩ : Fin 40) j))
    (fun pos => tileSecond m c pos ch j) ?_ ?_ n hn
  · intro n hn h0
    show (outsAt0 (F := Ideal) m c n hn).2.2.2 (ix2 (⟨16 + ch.val, by have := ch.isLt; omega⟩ : Fin 40) j) = tileSecond m c n ch j
    rw [scr_reset m c n hn h0]
    refine (Tile.pay2_second (blk0 m c ⟨n, hn⟩) (blk1 m c ⟨n, hn⟩) (blk2 m c ⟨n, hn⟩) (k0_pay1 (F := Ideal)) ch j).trans ?_
    rw [Tile.pay1_apply, zero_add, tileSecond, dif_pos hn]
  · intro n hn h0
    show (outsAt0 (F := Ideal) m c n hn).2.2.2 (ix2 (⟨16 + ch.val, by have := ch.isLt; omega⟩ : Fin 40) j)
      = ((outsAt0 (F := Ideal) m c (n - 1) (Nat.lt_of_le_of_lt (Nat.sub_le _ _) hn)).2.2.2) (ix2 (⟨16 + ch.val, by have := ch.isLt; omega⟩ : Fin 40) j) + tileSecond m c n ch j
    rw [scr_step m c n hn h0]
    refine (Tile.pay2_second (blk0 m c ⟨n, hn⟩) (blk1 m c ⟨n, hn⟩) (blk2 m c ⟨n, hn⟩) ((outsAt0 (F := Ideal) m c (n - 1) (Nat.lt_of_le_of_lt (Nat.sub_le _ _) hn)).2.2.2) ch j).trans ?_
    rw [tileSecond, dif_pos hn]
theorem acc_ones (c : Dev nD) (n : ℕ) (hn : n < cfg0.N) (j : Fin 512) :
    (outsAt0 (F := Ideal) m c n hn).2.2.2 (ix2 (32 : Fin 40) j)
      = ∑ k ∈ Finset.range (n % 32 + 1), tileOnes m c (n - n % 32 + k) j := by
  refine sum_of_steps cfg0.N
    (fun n hn => (outsAt0 (F := Ideal) m c n hn).2.2.2 (ix2 (32 : Fin 40) j))
    (fun pos => tileOnes m c pos j) ?_ ?_ n hn
  · intro n hn h0
    show (outsAt0 (F := Ideal) m c n hn).2.2.2 (ix2 (32 : Fin 40) j) = tileOnes m c n j
    rw [scr_reset m c n hn h0]
    refine (Tile.pay2_ones (blk0 m c ⟨n, hn⟩) (blk1 m c ⟨n, hn⟩) (blk2 m c ⟨n, hn⟩) (k0_pay1 (F := Ideal)) j).trans ?_
    rw [Tile.pay1_apply, zero_add, tileOnes, dif_pos hn]
  · intro n hn h0
    show (outsAt0 (F := Ideal) m c n hn).2.2.2 (ix2 (32 : Fin 40) j)
      = ((outsAt0 (F := Ideal) m c (n - 1) (Nat.lt_of_le_of_lt (Nat.sub_le _ _) hn)).2.2.2) (ix2 (32 : Fin 40) j) + tileOnes m c n j
    rw [scr_step m c n hn h0]
    refine (Tile.pay2_ones (blk0 m c ⟨n, hn⟩) (blk1 m c ⟨n, hn⟩) (blk2 m c ⟨n, hn⟩) ((outsAt0 (F := Ideal) m c (n - 1) (Nat.lt_of_le_of_lt (Nat.sub_le _ _) hn)).2.2.2) j).trans ?_
    rw [tileOnes, dif_pos hn]

/-- What an image's last point leaves in the three outputs' staging buffers: the sums over the image's 32 tiles. -/
theorem out3_at (c : Dev nD) (t : Fin cfg0.N) (h : t.val % 32 = 31) (ch : Fin 16) (j : Fin 512) :
    (outsAt0 (F := Ideal) m c t.val t.isLt).1 (ix3 (0 : Fin 1) ch j)
      = ∑ k ∈ Finset.range 32, tileFirst m c (t.val - 31 + k) ch j := by
  rw [out3_eq m c t h]
  refine (Tile.pay3_apply ((outsAt0 (F := Ideal) m c t.val t.isLt).2.2.2) ch j).trans ?_
  have e := acc_first m c t.val t.isLt ch j
  rw [h] at e
  exact e
theorem out4_at (c : Dev nD) (t : Fin cfg0.N) (h : t.val % 32 = 31) (ch : Fin 16) (j : Fin 512) :
    (outsAt0 (F := Ideal) m c t.val t.isLt).2.1 (ix3 (0 : Fin 1) ch j)
      = ∑ k ∈ Finset.range 32, tileSecond m c (t.val - 31 + k) ch j := by
  rw [out4_eq m c t h]
  refine (Tile.pay4_apply ((outsAt0 (F := Ideal) m c t.val t.isLt).2.2.2) ch j).trans ?_
  have e := acc_second m c t.val t.isLt ch j
  rw [h] at e
  exact e
theorem out5_at (c : Dev nD) (t : Fin cfg0.N) (h : t.val % 32 = 31) (j : Fin 512) :
    (outsAt0 (F := Ideal) m c t.val t.isLt).2.2.1 (ix3 (0 : Fin 1) (0 : Fin 1) j)
      = ∑ k ∈ Finset.range 32, tileOnes m c (t.val - 31 + k) j := by
  rw [out5_eq m c t h]
  refine (Tile.pay5_apply ((outsAt0 (F := Ideal) m c t.val t.isLt).2.2.2) j).trans ?_
  have e := acc_ones m c t.val t.isLt j
  rw [h] at e
  exact e

end Cert.KernelIdeal.Acc

end
-- ==== Proof.KernelArrays.lean ====
/-
  From the blocks to the three output arrays.

  The float inputs reach the region flattened to [4, 16, 1048576] and the labels to [4, 1, 1048576]; the block of grid
  position `32 * b + k` is image `b`, pixels `32768 * k .. 32768 * k + 32767` (a block's coordinate is always block index ×
  block size + the coordinate inside the block). The three outputs, [4, 16, 512], [4, 16, 512] and [4, 1, 512], are written
  back only at an image's last point, block `b` of each; these 4 blocks tile the arrays. So every output entry is the
  sum over the image's 32 tiles of the tile sums, which is the sum over all of the image's pixels (`sum_tiles`).
-/
import proofs.«401834_j154618822672_2_alg».proof.Proof.KernelAcc
import Idealize.ShloMosaic.Lib.Pipeline.Value

noncomputable section

open scoped BigOperators

namespace Cert.KernelIdeal.Arrays

open Cert.KernelIdeal Cert.KernelIdeal.Gen Cert.KernelIdeal.Acc Idealize.ShloMosaic Idealize.ShloMosaic.TcCoe Idealize.ShloMosaic.ValueIdx Idealize.SL.Sem Cert.SegMean

variable (m : (ℓ : Loc nD τ sig) → Buf (Elt Ideal) ℓ)

/-- The three arrays the region reads, as it finds them, at their literal types. -/
abbrev arr0 (c : Dev nD) : Vec Ideal S4x16x1048576 .f32 := V m c main_v0
abbrev arr1 (c : Dev nD) : Vec Ideal S4x16x1048576 .f32 := V m c main_v1
abbrev arr2 (c : Dev nD) : Vec Ideal S4x1x1048576 .i32 := V m c main_v2

/-- The three output arrays after the region, at their literal types. -/
abbrev fin3 (c : Dev nD) : Vec Ideal S4x16x512 .f32 := (dats (F := Ideal) m 0 c).arrAt 3 cfg0.N
abbrev fin4 (c : Dev nD) : Vec Ideal S4x16x512 .f32 := (dats (F := Ideal) m 0 c).arrAt 4 cfg0.N
abbrev fin5 (c : Dev nD) : Vec Ideal S4x1x512 .f32 := (dats (F := Ideal) m 0 c).arrAt 5 cfg0.N

/-- The block index maps over the grid: every window's block index is the image `n / 32` on axis 0 and 0 on axis 1; on the
    pixel axis an input's is the tile `n % 32`, an output's 0. -/
theorem idx_facts : ∀ t : Fin cfg0.N,
    win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = t.val % 32
    ∧ win0_2.index t (0 : Fin 3) = t.val / 32 ∧ win0_2.index t (1 : Fin 3) = 0 ∧ win0_2.index t (2 : Fin 3) = t.val % 32
    ∧ win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0 :=
  (by decide +kernel : ∀ t : Fin grid0.N, _)

/-! ## The input blocks as parts of the arrays -/

/-- The first array's block at position `32 * b + k` is image `b`, all channels, the pixels of tile `k`. -/
theorem blk0_apply (c : Dev nD) (t : Fin cfg0.N) (b : Fin 4) (k : Fin 32) (ht : t.val = 32 * b.val + k.val)
    (ch : Fin 16) (q : Fin 32768) :
    blk0 m c t (ix3 (0 : Fin 1) ch q) = arr0 m c (ix3 b ch (tq k q)) := by
  obtain ⟨e0, e1, e2, -⟩ := idx_facts t
  unfold blk0 iblk
  rw [View.read_apply]
  show V m c main_v0 _ = V m c main_v0 _
  congr 1
  funext a
  apply Fin.ext
  have hb := b.isLt
  have hk := k.isLt
  match a with
  | ⟨0, _⟩ => show win0_0.index t (0 : Fin 3) * 1 + 1 * 0 = b.val; rw [e0, ht]; omega
  | ⟨1, _⟩ => show win0_0.index t (1 : Fin 3) * 16 + 1 * ch.val = ch.val; rw [e1]; omega
  | ⟨2, _⟩ => show win0_0.index t (2 : Fin 3) * 32768 + 1 * q.val = 32768 * k.val + q.val; rw [e2, ht]; omega

/-- The second array's block at position `32 * b + k` is image `b`, all channels, the pixels of tile `k`. -/
theorem blk1_apply (c : Dev nD) (t : Fin cfg0.N) (b : Fin 4) (k : Fin 32) (ht : t.val = 32 * b.val + k.val)
    (ch : Fin 16) (q : Fin 32768) :
    blk1 m c t (ix3 (0 : Fin 1) ch q) = arr1 m c (ix3 b ch (tq k q)) := by
  obtain ⟨-, -, -, e0, e1, e2, -⟩ := idx_facts t
  unfold blk1 iblk
  rw [View.read_apply]
  show V m c main_v1 _ = V m c main_v1 _
  congr 1
  funext a
  apply Fin.ext
  have hb := b.isLt
  have hk := k.isLt
  match a with
  | ⟨0, _⟩ => show win0_1.index t (0 : Fin 3) * 1 + 1 * 0 = b.val; rw [e0, ht]; omega
  | ⟨1, _⟩ => show win0_1.index t (1 : Fin 3) * 16 + 1 * ch.val = ch.val; rw [e1]; omega
  | ⟨2, _⟩ => show win0_1.index t (2 : Fin 3) * 32768 + 1 * q.val = 32768 * k.val + q.val; rw [e2, ht]; omega

/-- The label block at position `32 * b + k` is the label row of image `b`, the pixels of tile `k`. -/
theorem blk2_apply (c : Dev nD) (t : Fin cfg0.N) (b : Fin 4) (k : Fin 32) (ht : t.val = 32 * b.val + k.val)
    (q : Fin 32768) :
    blk2 m c t (ix3 (0 : Fin 1) (0 : Fin 1) q) = arr2 m c (ix3 b (0 : Fin 1) (tq k q)) := by
  obtain ⟨-, -, -, -, -, -, e0, e1, e2, -⟩ := idx_facts t
  unfold blk2 iblk
  rw [View.read_apply]
  show V m c main_v2 _ = V m c main_v2 _
  congr 1
  funext a
  apply Fin.ext
  have hb := b.isLt
  have hk := k.isLt
  match a with
  | ⟨0, _⟩ => show win0_2.index t (0 : Fin 3) * 1 + 1 * 0 = b.val; rw [e0, ht]; omega
  | ⟨1, _⟩ => show win0_2.index t (1 : Fin 3) * 1 + 1 * 0 = 0; rw [e1]
  | ⟨2, _⟩ => show win0_2.index t (2 : Fin 3) * 32768 + 1 * q.val = 32768 * k.val + q.val; rw [e2, ht]; omega

/-! ## The first output -/

/-- What the first output array ends holding: entry (b, ch, j) is the sum of channel `ch` of image `b` of the first array
    over the pixels of label `j + 1`. -/
def G3 (c : Dev nD) : Vec Ideal S4x16x512 .f32 := fun i =>
  segSum (fun p => arr0 m c (ix3 (⟨(i 0).val, (i 0).isLt⟩ : Fin 4) (⟨(i 1).val, (i 1).isLt⟩ : Fin 16) p))
    (fun p => arr2 m c (ix3 (⟨(i 0).val, (i 0).isLt⟩ : Fin 4) (0 : Fin 1) p)) (⟨(i 2).val, (i 2).isLt⟩ : Fin 512)

/-- The last point `32 * b + 31` of image `b` leaves at (0, ch, j) of the output's block the sum over the image's 32 tiles
    of the tile sums, which is the sum over all of the image's pixels. -/
theorem out3_last (c : Dev nD) (t : Fin cfg0.N) (h31 : t.val % 32 = 31) (b : Fin 4) (hb : t.val = 32 * b.val + 31)
    (ch : Fin 16) (j : Fin 512) :
    (outsAt0 (F := Ideal) m c t.val t.isLt).1 (ix3 (0 : Fin 1) ch j) = G3 m c (ix3 b ch j) := by
  have hN : cfg0.N = 128 := N_0
  have htN : t.val < 128 := hN ▸ t.isLt
  rw [out3_at m c t h31 ch j, Finset.sum_range]
  show _ = segSum (fun p => arr0 m c (ix3 b ch p)) (fun p => arr2 m c (ix3 b (0 : Fin 1) p)) j
  unfold segSum
  rw [← sum_tiles]
  refine Finset.sum_congr rfl fun k _ => ?_
  have hk := k.isLt
  have hpos : t.val - 31 + k.val < cfg0.N := lt_of_lt_of_eq (by omega) hN.symm
  unfold tileFirst
  rw [dif_pos hpos]
  refine Finset.sum_congr rfl fun q _ => ?_
  rw [blk0_apply m c ⟨t.val - 31 + k.val, hpos⟩ b k (by show t.val - 31 + k.val = _; omega) ch q,
    blk2_apply m c ⟨t.val - 31 + k.val, hpos⟩ b k (by show t.val - 31 + k.val = _; omega) q]

/-- What a point that writes the first output back writes is its block of `G3`: block `n / 32` on the image axis, whole on
    the other two. -/
theorem flushed3_eq (c : Dev nD) (t : Fin cfg0.N) (hf : (cfg0.win 3).flush t = true) :
    (dats (F := Ideal) m 0 c).flushed 3 t = ((cfg0.win 3).blk t).view.read (Elt Ideal) (G3 m c) := by
  have h31 : t.val % 32 = 31 := (flush0_3 t).mp hf
  have hN : cfg0.N = 128 := N_0
  have htN : t.val < 128 := hN ▸ t.isLt
  obtain ⟨-, -, -, -, -, -, -, -, -, e0, e1, e2, -⟩ := idx_facts t
  show (cfg0.win 3).cut (grid0.coords t) ((dats m 0 c).after 3 t) = _
  rw [after0_3]
  funext y
  rw [View.read_apply, cast_eq]
  have h0 : (y 0).val < 1 := (y 0).isLt
  have h1 : (y 1).val < 16 := (y 1).isLt
  have h2 : (y 2).val < 512 := (y 2).isLt
  have hL : ((cfg0.win 3).xinj (grid0.coords t) y : S1x16x512.Idx) = ix3 (0 : Fin 1) (⟨(y 1).val, h1⟩ : Fin 16) (⟨(y 2).val, h2⟩ : Fin 512) := by
    funext a; apply Fin.ext
    match a with
    | ⟨0, _⟩ => show (y 0).val = 0; omega
    | ⟨1, _⟩ => rfl
    | ⟨2, _⟩ => rfl
  have hR : (((cfg0.win 3).blk t).view.emb y : S4x16x512.Idx) = ix3 (⟨t.val / 32, by omega⟩ : Fin 4) (⟨(y 1).val, h1⟩ : Fin 16) (⟨(y 2).val, h2⟩ : Fin 512) := by
    funext a; apply Fin.ext
    match a with
    | ⟨0, _⟩ => show win0_3.index t (0 : Fin 3) * 1 + 1 * (y 0).val = t.val / 32; rw [e0]; omega
    | ⟨1, _⟩ => show win0_3.index t (1 : Fin 3) * 16 + 1 * (y 1).val = (y 1).val; rw [e1]; omega
    | ⟨2, _⟩ => show win0_3.index t (2 : Fin 3) * 512 + 1 * (y 2).val = (y 2).val; rw [e2]; omega
  have hfin := out3_last m c t h31 ⟨t.val / 32, by omega⟩ (by show t.val = 32 * (t.val / 32) + 31; omega) ⟨(y 1).val, h1⟩ ⟨(y 2).val, h2⟩
  show (outsAt0 (F := Ideal) m c t.val t.isLt).1 ((cfg0.win 3).xinj (grid0.coords t) y) = G3 m c (((cfg0.win 3).blk t).view.emb y)
  rw [hL, hR]
  exact hfin

/-- Every entry (b, ch, j) of the first output array is in the block of image `b`'s last point. -/
theorem cover3 (i : S4x16x512.Idx) :
    ∃ t : Fin cfg0.N, (cfg0.win 3).flush t = true ∧ i ∈ ((cfg0.win 3).blk t).view.set := by
  have hN : cfg0.N = 128 := N_0
  have h0 : (i 0).val < 4 := (i 0).isLt
  have h1 : (i 1).val < 16 := (i 1).isLt
  have h2 : (i 2).val < 512 := (i 2).isLt
  let t : Fin cfg0.N := ⟨32 * (i 0).val + 31, lt_of_lt_of_eq (by omega) hN.symm⟩
  have htv : t.val = 32 * (i 0).val + 31 := rfl
  obtain ⟨-, -, -, -, -, -, -, -, -, e0, e1, e2, -⟩ := idx_facts t
  refine ⟨t, (flush0_3 t).mpr (by rw [htv]; omega), ?_⟩
  show i ∈ ((View.whole main_v3_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0, htv]; omega
  | ⟨1, _⟩ => show win0_3.index t (1 : Fin 3) * 16 ≤ (i 1).val ∧ (i 1).val < win0_3.index t (1 : Fin 3) * 16 + 16; rw [e1]; omega
  | ⟨2, _⟩ => show win0_3.index t (2 : Fin 3) * 512 ≤ (i 2).val ∧ (i 2).val < win0_3.index t (2 : Fin 3) * 512 + 512; rw [e2]; omega

/-- The first output array after the region is `G3`. -/
theorem fin3_eq (c : Dev nD) : fin3 m c = G3 m c :=
  (dats (F := Ideal) m 0 c).arrAt_eq_of_cover 3 (G3 m c) (flushed3_eq m c) cover3

/-- Entry (b, ch, j) of the first output is the sum of channel `ch` of image `b` of the first array over label `j + 1`. -/
theorem fin3_apply (c : Dev nD) (b : Fin 4) (ch : Fin 16) (j : Fin 512) :
    fin3 m c (ix3 b ch j)
      = segSum (fun p => arr0 m c (ix3 b ch p)) (fun p => arr2 m c (ix3 b (0 : Fin 1) p)) j :=
  congrFun (fin3_eq m c) (ix3 b ch j)

/-! ## The second output -/

/-- What the second output array ends holding: entry (b, ch, j) is the sum of channel `ch` of image `b` of the second array
    over the pixels of label `j + 1`. -/
def G4 (c : Dev nD) : Vec Ideal S4x16x512 .f32 := fun i =>
  segSum (fun p => arr1 m c (ix3 (⟨(i 0).val, (i 0).isLt⟩ : Fin 4) (⟨(i 1).val, (i 1).isLt⟩ : Fin 16) p))
    (fun p => arr2 m c (ix3 (⟨(i 0).val, (i 0).isLt⟩ : Fin 4) (0 : Fin 1) p)) (⟨(i 2).val, (i 2).isLt⟩ : Fin 512)

/-- The last point `32 * b + 31` of image `b` leaves at (0, ch, j) of the output's block the sum over the image's 32 tiles
    of the tile sums, which is the sum over all of the image's pixels. -/
theorem out4_last (c : Dev nD) (t : Fin cfg0.N) (h31 : t.val % 32 = 31) (b : Fin 4) (hb : t.val = 32 * b.val + 31)
    (ch : Fin 16) (j : Fin 512) :
    (outsAt0 (F := Ideal) m c t.val t.isLt).2.1 (ix3 (0 : Fin 1) ch j) = G4 m c (ix3 b ch j) := by
  have hN : cfg0.N = 128 := N_0
  have htN : t.val < 128 := hN ▸ t.isLt
  rw [out4_at m c t h31 ch j, Finset.sum_range]
  show _ = segSum (fun p => arr1 m c (ix3 b ch p)) (fun p => arr2 m c (ix3 b (0 : Fin 1) p)) j
  unfold segSum
  rw [← sum_tiles]
  refine Finset.sum_congr rfl fun k _ => ?_
  have hk := k.isLt
  have hpos : t.val - 31 + k.val < cfg0.N := lt_of_lt_of_eq (by omega) hN.symm
  unfold tileSecond
  rw [dif_pos hpos]
  refine Finset.sum_congr rfl fun q _ => ?_
  rw [blk1_apply m c ⟨t.val - 31 + k.val, hpos⟩ b k (by show t.val - 31 + k.val = _; omega) ch q,
    blk2_apply m c ⟨t.val - 31 + k.val, hpos⟩ b k (by show t.val - 31 + k.val = _; omega) q]

/-- What a point that writes the second output back writes is its block of `G4`: block `n / 32` on the image axis, whole on
    the other two. -/
theorem flushed4_eq (c : Dev nD) (t : Fin cfg0.N) (hf : (cfg0.win 4).flush t = true) :
    (dats (F := Ideal) m 0 c).flushed 4 t = ((cfg0.win 4).blk t).view.read (Elt Ideal) (G4 m c) := by
  have h31 : t.val % 32 = 31 := (flush0_4 t).mp hf
  have hN : cfg0.N = 128 := N_0
  have htN : t.val < 128 := hN ▸ t.isLt
  obtain ⟨-, -, -, -, -, -, -, -, -, -, -, -, e0, e1, e2, -⟩ := idx_facts t
  show (cfg0.win 4).cut (grid0.coords t) ((dats m 0 c).after 4 t) = _
  rw [after0_4]
  funext y
  rw [View.read_apply, cast_eq]
  have h0 : (y 0).val < 1 := (y 0).isLt
  have h1 : (y 1).val < 16 := (y 1).isLt
  have h2 : (y 2).val < 512 := (y 2).isLt
  have hL : ((cfg0.win 4).xinj (grid0.coords t) y : S1x16x512.Idx) = ix3 (0 : Fin 1) (⟨(y 1).val, h1⟩ : Fin 16) (⟨(y 2).val, h2⟩ : Fin 512) := by
    funext a; apply Fin.ext
    match a with
    | ⟨0, _⟩ => show (y 0).val = 0; omega
    | ⟨1, _⟩ => rfl
    | ⟨2, _⟩ => rfl
  have hR : (((cfg0.win 4).blk t).view.emb y : S4x16x512.Idx) = ix3 (⟨t.val / 32, by omega⟩ : Fin 4) (⟨(y 1).val, h1⟩ : Fin 16) (⟨(y 2).val, h2⟩ : Fin 512) := by
    funext a; apply Fin.ext
    match a with
    | ⟨0, _⟩ => show win0_4.index t (0 : Fin 3) * 1 + 1 * (y 0).val = t.val / 32; rw [e0]; omega
    | ⟨1, _⟩ => show win0_4.index t (1 : Fin 3) * 16 + 1 * (y 1).val = (y 1).val; rw [e1]; omega
    | ⟨2, _⟩ => show win0_4.index t (2 : Fin 3) * 512 + 1 * (y 2).val = (y 2).val; rw [e2]; omega
  have hfin := out4_last m c t h31 ⟨t.val / 32, by omega⟩ (by show t.val = 32 * (t.val / 32) + 31; omega) ⟨(y 1).val, h1⟩ ⟨(y 2).val, h2⟩
  show (outsAt0 (F := Ideal) m c t.val t.isLt).2.1 ((cfg0.win 4).xinj (grid0.coords t) y) = G4 m c (((cfg0.win 4).blk t).view.emb y)
  rw [hL, hR]
  exact hfin

/-- Every entry (b, ch, j) of the second output array is in the block of image `b`'s last point. -/
theorem cover4 (i : S4x16x512.Idx) :
    ∃ t : Fin cfg0.N, (cfg0.win 4).flush t = true ∧ i ∈ ((cfg0.win 4).blk t).view.set := by
  have hN : cfg0.N = 128 := N_0
  have h0 : (i 0).val < 4 := (i 0).isLt
  have h1 : (i 1).val < 16 := (i 1).isLt
  have h2 : (i 2).val < 512 := (i 2).isLt
  let t : Fin cfg0.N := ⟨32 * (i 0).val + 31, lt_of_lt_of_eq (by omega) hN.symm⟩
  have htv : t.val = 32 * (i 0).val + 31 := rfl
  obtain ⟨-, -, -, -, -, -, -, -, -, -, -, -, e0, e1, e2, -⟩ := idx_facts t
  refine ⟨t, (flush0_4 t).mpr (by rw [htv]; omega), ?_⟩
  show i ∈ ((View.whole main_v3_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0, htv]; omega
  | ⟨1, _⟩ => show win0_4.index t (1 : Fin 3) * 16 ≤ (i 1).val ∧ (i 1).val < win0_4.index t (1 : Fin 3) * 16 + 16; rw [e1]; omega
  | ⟨2, _⟩ => show win0_4.index t (2 : Fin 3) * 512 ≤ (i 2).val ∧ (i 2).val < win0_4.index t (2 : Fin 3) * 512 + 512; rw [e2]; omega

/-- The second output array after the region is `G4`. -/
theorem fin4_eq (c : Dev nD) : fin4 m c = G4 m c :=
  (dats (F := Ideal) m 0 c).arrAt_eq_of_cover 4 (G4 m c) (flushed4_eq m c) cover4

/-- The same for the second output and the second array. -/
theorem fin4_apply (c : Dev nD) (b : Fin 4) (ch : Fin 16) (j : Fin 512) :
    fin4 m c (ix3 b ch j)
      = segSum (fun p => arr1 m c (ix3 b ch p)) (fun p => arr2 m c (ix3 b (0 : Fin 1) p)) j :=
  congrFun (fin4_eq m c) (ix3 b ch j)

/-! ## The third output -/

/-- What the third output array ends holding: entry (b, 0, j) is the number of pixels of image `b` with label `j + 1`. -/
def G5 (c : Dev nD) : Vec Ideal S4x1x512 .f32 := fun i =>
  segSum (fun _ => 1) (fun p => arr2 m c (ix3 (⟨(i 0).val, (i 0).isLt⟩ : Fin 4) (0 : Fin 1) p)) (⟨(i 2).val, (i 2).isLt⟩ : Fin 512)

/-- The last point `32 * b + 31` of image `b` leaves at (0, 0, j) of the output's block the sum over the image's 32 tiles of
    the tile counts, which is the count over all of the image's pixels. -/
theorem out5_last (c : Dev nD) (t : Fin cfg0.N) (h31 : t.val % 32 = 31) (b : Fin 4) (hb : t.val = 32 * b.val + 31)
    (j : Fin 512) :
    (outsAt0 (F := Ideal) m c t.val t.isLt).2.2.1 (ix3 (0 : Fin 1) (0 : Fin 1) j) = G5 m c (ix3 b (0 : Fin 1) j) := by
  have hN : cfg0.N = 128 := N_0
  have htN : t.val < 128 := hN ▸ t.isLt
  rw [out5_at m c t h31 j, Finset.sum_range]
  show _ = segSum (fun _ => 1) (fun p => arr2 m c (ix3 b (0 : Fin 1) p)) j
  unfold segSum
  rw [← sum_tiles]
  refine Finset.sum_congr rfl fun k _ => ?_
  have hk := k.isLt
  have hpos : t.val - 31 + k.val < cfg0.N := lt_of_lt_of_eq (by omega) hN.symm
  unfold tileOnes
  rw [dif_pos hpos]
  refine Finset.sum_congr rfl fun q _ => ?_
  rw [blk2_apply m c ⟨t.val - 31 + k.val, hpos⟩ b k (by show t.val - 31 + k.val = _; omega) q]

/-- What a point that writes the third output back writes is its block of `G5`. -/
theorem flushed5_eq (c : Dev nD) (t : Fin cfg0.N) (hf : (cfg0.win 5).flush t = true) :
    (dats (F := Ideal) m 0 c).flushed 5 t = ((cfg0.win 5).blk t).view.read (Elt Ideal) (G5 m c) := by
  have h31 : t.val % 32 = 31 := (flush0_5 t).mp hf
  have hN : cfg0.N = 128 := N_0
  have htN : t.val < 128 := hN ▸ t.isLt
  obtain ⟨-, -, -, -, -, -, -, -, -, -, -, -, -, -, -, e0, e1, e2⟩ := idx_facts t
  show (cfg0.win 5).cut (grid0.coords t) ((dats m 0 c).after 5 t) = _
  rw [after0_5]
  funext y
  rw [View.read_apply, cast_eq]
  have h0 : (y 0).val < 1 := (y 0).isLt
  have h1 : (y 1).val < 1 := (y 1).isLt
  have h2 : (y 2).val < 512 := (y 2).isLt
  have hL : ((cfg0.win 5).xinj (grid0.coords t) y : S1x1x512.Idx) = ix3 (0 : Fin 1) (0 : Fin 1) (⟨(y 2).val, h2⟩ : Fin 512) := by
    funext a; apply Fin.ext
    match a with
    | ⟨0, _⟩ => show (y 0).val = 0; omega
    | ⟨1, _⟩ => show (y 1).val = 0; omega
    | ⟨2, _⟩ => rfl
  have hR : (((cfg0.win 5).blk t).view.emb y : S4x1x512.Idx) = ix3 (⟨t.val / 32, by omega⟩ : Fin 4) (0 : Fin 1) (⟨(y 2).val, h2⟩ : Fin 512) := by
    funext a; apply Fin.ext
    match a with
    | ⟨0, _⟩ => show win0_5.index t (0 : Fin 3) * 1 + 1 * (y 0).val = t.val / 32; rw [e0]; omega
    | ⟨1, _⟩ => show win0_5.index t (1 : Fin 3) * 1 + 1 * (y 1).val = 0; rw [e1]; omega
    | ⟨2, _⟩ => show win0_5.index t (2 : Fin 3) * 512 + 1 * (y 2).val = (y 2).val; rw [e2]; omega
  have hfin := out5_last m c t h31 ⟨t.val / 32, by omega⟩ (by show t.val = 32 * (t.val / 32) + 31; omega) ⟨(y 2).val, h2⟩
  show (outsAt0 (F := Ideal) m c t.val t.isLt).2.2.1 ((cfg0.win 5).xinj (grid0.coords t) y) = G5 m c (((cfg0.win 5).blk t).view.emb y)
  rw [hL, hR]
  exact hfin

/-- Every entry (b, 0, j) of the third output array is in the block of image `b`'s last point. -/
theorem cover5 (i : S4x1x512.Idx) :
    ∃ t : Fin cfg0.N, (cfg0.win 5).flush t = true ∧ i ∈ ((cfg0.win 5).blk t).view.set := by
  have hN : cfg0.N = 128 := N_0
  have h0 : (i 0).val < 4 := (i 0).isLt
  have h1 : (i 1).val < 1 := (i 1).isLt
  have h2 : (i 2).val < 512 := (i 2).isLt
  let t : Fin cfg0.N := ⟨32 * (i 0).val + 31, lt_of_lt_of_eq (by omega) hN.symm⟩
  have htv : t.val = 32 * (i 0).val + 31 := rfl
  obtain ⟨-, -, -, -, -, -, -, -, -, -, -, -, -, -, -, e0, e1, e2⟩ := idx_facts t
  refine ⟨t, (flush0_5 t).mpr (by rw [htv]; omega), ?_⟩
  show i ∈ ((View.whole main_v3_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; rw [e0, htv]; omega
  | ⟨1, _⟩ => show win0_5.index t (1 : Fin 3) * 1 ≤ (i 1).val ∧ (i 1).val < win0_5.index t (1 : Fin 3) * 1 + 1; rw [e1]; omega
  | ⟨2, _⟩ => show win0_5.index t (2 : Fin 3) * 512 ≤ (i 2).val ∧ (i 2).val < win0_5.index t (2 : Fin 3) * 512 + 512; rw [e2]; omega

/-- The third output array after the region is `G5`. -/
theorem fin5_eq (c : Dev nD) : fin5 m c = G5 m c :=
  (dats (F := Ideal) m 0 c).arrAt_eq_of_cover 5 (G5 m c) (flushed5_eq m c) cover5

/-- Entry (b, 0, j) of the third output is the number of pixels of image `b` with label `j + 1`. -/
theorem fin5_apply (c : Dev nD) (b : Fin 4) (j : Fin 512) :
    fin5 m c (ix3 b (0 : Fin 1) j)
      = segSum (fun _ => 1) (fun p => arr2 m c (ix3 b (0 : Fin 1) p)) j :=
  congrFun (fin5_eq m c) (ix3 b (0 : Fin 1) j)

end Cert.KernelIdeal.Arrays

end
-- ==== Proof.KernelRun.lean ====
/-
  The kernel's program from its arguments to its results.

  Before the region the three arguments are only reshaped (the two pixel axes merged into one), so the region's arrays
  read the arguments at pixel `p`'s row `p / 1024` and column `p % 1024`, and the region's three outputs are the spec's sums
  and counts of the arguments. After the region the host divides each sum by its label's count floored at one, moves the
  channel axis last and flattens (image, label) to the row `512 * b + j`; and it turns the counts into label ids. Read at
  an index, the three results are the spec's `meanRes` of the first and of the second float argument and `idRes`.
-/
import proofs.«401834_j154618822672_2_alg».proof.Proof.KernelArrays
import Idealize.ShloMosaic.Lib.StableHlo.Run
import Idealize.ShloMosaic.Lib.Pipeline.Value
import Idealize.ShloMosaic.Lib.ValueLayout

noncomputable section

open scoped BigOperators

namespace Cert.KernelIdeal.Run

open Cert.KernelIdeal Cert.KernelIdeal.Gen Cert.KernelIdeal.Acc Cert.KernelIdeal.Arrays Idealize.ShloMosaic Idealize.ShloMosaic.TcCoe Idealize.ShloMosaic.ValueIdx Idealize.SL.Sem Cert.SegMean

variable (m : (ℓ : Loc nD τ sig) → Buf (Elt Ideal) ℓ)

/-- The arguments as the program finds them, at their literal types. -/
abbrev a0 (c : Dev nD) : Vec Ideal S4x16x1024x1024 .f32 := m ((c.tc : Thread nD τ).loc main_arg0)
abbrev a1 (c : Dev nD) : Vec Ideal S4x16x1024x1024 .f32 := m ((c.tc : Thread nD τ).loc main_arg1)
abbrev a2 (c : Dev nD) : Vec Ideal S4x1x1024x1024 .i32 := m ((c.tc : Thread nD τ).loc main_arg2)

/-- Before the region each argument is reshaped, its two pixel axes merged into one. -/
theorem arr0_eq (c : Dev nD) :
    arr0 m c = shapeCast S4x16x1048576 (a0 m c) shapeCasts_S4x16x1024x1024_S4x16x1048576 := by
  show StableHlo.after hostOps0 (fun b => m (c, b)) (Proc.devRef .tc main_v0) = _
  after_results
  rfl
theorem arr1_eq (c : Dev nD) :
    arr1 m c = shapeCast S4x16x1048576 (a1 m c) shapeCasts_S4x16x1024x1024_S4x16x1048576 := by
  show StableHlo.after hostOps0 (fun b => m (c, b)) (Proc.devRef .tc main_v1) = _
  after_results
  rfl
theorem arr2_eq (c : Dev nD) :
    arr2 m c = shapeCast S4x1x1048576 (a2 m c) shapeCasts_S4x1x1024x1024_S4x1x1048576 := by
  show StableHlo.after hostOps0 (fun b => m (c, b)) (Proc.devRef .tc main_v2) = _
  after_results
  rfl

/-- The merged pixel axis read at pixel `p` is the argument at row `p / 1024`, column `p % 1024`: the two indices have
    the same row-major position. -/
theorem cast16_apply {α : Type} (x : S4x16x1024x1024.Idx → α) (b : Fin 4) (ch : Fin 16) (p : Fin 1048576) :
    shapeCast S4x16x1048576 x shapeCasts_S4x16x1024x1024_S4x16x1048576 (ix3 b ch p) = x (ix4 b ch (prow p) (pcol p)) :=
  shapeCast_apply x shapeCasts_S4x16x1024x1024_S4x16x1048576 (ix3 b ch p) (ix4 b ch (prow p) (pcol p))
    (by rewrite [Shape.rowMajor_val_four, Shape.rowMajor_val_three]
        have hb := b.isLt; have hc := ch.isLt; have hp := p.isLt
        show ((b.val * 16 + ch.val) * 1024 + p.val / 1024) * 1024 + p.val % 1024 = (b.val * 16 + ch.val) * 1048576 + p.val
        omega)
theorem cast1_apply {α : Type} (x : S4x1x1024x1024.Idx → α) (b : Fin 4) (p : Fin 1048576) :
    shapeCast S4x1x1048576 x shapeCasts_S4x1x1024x1024_S4x1x1048576 (ix3 b (0 : Fin 1) p) = x (ix4 b (0 : Fin 1) (prow p) (pcol p)) :=
  shapeCast_apply x shapeCasts_S4x1x1024x1024_S4x1x1048576 (ix3 b (0 : Fin 1) p) (ix4 b (0 : Fin 1) (prow p) (pcol p))
    (by rewrite [Shape.rowMajor_val_four, Shape.rowMajor_val_three]
        have hb := b.isLt; have hp := p.isLt
        show ((b.val * 1 + 0) * 1024 + p.val / 1024) * 1024 + p.val % 1024 = (b.val * 1 + 0) * 1048576 + p.val
        omega)

/-- The arrays the region reads, at a pixel, are the arguments' channels and label words. -/
theorem arr0_apply (c : Dev nD) (b : Fin 4) (ch : Fin 16) (p : Fin 1048576) :
    arr0 m c (ix3 b ch p) = chanOf (a0 m c) b ch p :=
  (congrFun (arr0_eq m c) (ix3 b ch p)).trans (cast16_apply (a0 m c) b ch p)
theorem arr1_apply (c : Dev nD) (b : Fin 4) (ch : Fin 16) (p : Fin 1048576) :
    arr1 m c (ix3 b ch p) = chanOf (a1 m c) b ch p :=
  (congrFun (arr1_eq m c) (ix3 b ch p)).trans (cast16_apply (a1 m c) b ch p)
theorem arr2_apply (c : Dev nD) (b : Fin 4) (p : Fin 1048576) :
    arr2 m c (ix3 b (0 : Fin 1) p) = labelsOf (a2 m c) b p :=
  (congrFun (arr2_eq m c) (ix3 b (0 : Fin 1) p)).trans (cast1_apply (a2 m c) b p)

/-- The region's three outputs are the spec's sums and counts of the arguments. -/
theorem fin3_eq (c : Dev nD) (b : Fin 4) (ch : Fin 16) (j : Fin 512) :
    fin3 m c (ix3 b ch j) = sumOf (a0 m c) (a2 m c) b ch j := by
  refine (fin3_apply m c b ch j).trans ?_
  unfold sumOf
  exact congrArg₂ (fun x l => segSum x l j) (funext fun p => arr0_apply m c b ch p) (funext fun p => arr2_apply m c b p)
theorem fin4_eq (c : Dev nD) (b : Fin 4) (ch : Fin 16) (j : Fin 512) :
    fin4 m c (ix3 b ch j) = sumOf (a1 m c) (a2 m c) b ch j := by
  refine (fin4_apply m c b ch j).trans ?_
  unfold sumOf
  exact congrArg₂ (fun x l => segSum x l j) (funext fun p => arr1_apply m c b ch p) (funext fun p => arr2_apply m c b p)
theorem fin5_eq (c : Dev nD) (b : Fin 4) (j : Fin 512) :
    fin5 m c (ix3 b (0 : Fin 1) j) = countOf (a2 m c) b j := by
  refine (fin5_apply m c b j).trans ?_
  unfold countOf
  exact congrArg (fun l => segSum (fun _ => 1) l j) (funext fun p => arr2_apply m c b p)

/-! ## After the region -/

/-- A float result as the program computes it from a sum array and the count array: the count floored at one and spread
    over the channels, the quotient, the channel axis moved last, (image, label) flattened. -/
def meanOut (s : Vec Ideal S4x16x512 .f32) (n : Vec Ideal S4x1x512 .f32) : Vec Ideal S2048x16 .f32 :=
  shapeCast S2048x16
    (transpose S4x512x16 [0, 2, 1]
      (Host.divf (F := Ideal) s
        (broadcastInDim S4x16x512 ![0, 1, 2] bcast_S4x1x512_S4x16x512_0_1_2
          (maximumf n (broadcastInDim S4x1x512 ![] bcast_S_S4x1x512 (constant (F := Ideal) S_ .f32 0x3F800000#32)))))
      transposes_S4x16x512_S4x512x16_0_2_1)
    shapeCasts_S4x512x16_S2048x16

/-- The integer result as the program computes it from the count array: where the count is positive the label's id
    (one more than its position), else zero; (image, label) flattened. -/
def idOut (n : Vec Ideal S4x1x512 .f32) : IVec S2048 32 :=
  shapeCast S2048
    (select
      (cmpf (F := Ideal) .ogt (shapeCast S4x512 n shapeCasts_S4x1x512_S4x512)
        (broadcastInDim S4x512 ![] bcast_S_S4x512 (constant (F := Ideal) S_ .f32 0x00000000#32)))
      (broadcastInDim S4x512 ![0, 1] bcast_S1x512_S4x512_0_1
        (broadcastInDim S1x512 ![1] bcast_S512_S1x512_1
          (addi (broadcastInDim S512 ![] bcast_S_S512 (constantI S_ 32 1#32)) (iotaInDim S512 32 0))))
      (broadcastInDim S4x512 ![] bcast_S_S4x512 (constantI S_ 32 0#32)))
    shapeCasts_S4x512_S2048

/-- What the operations after the region leave in the three result buffers, from ANY contents `W` they start at: the
    two float results from the first (second) sum array and the count array, the integer result from the count array. -/
theorem tail_v9 (W : Valuation τ sig (Elt Ideal)) :
    StableHlo.after (List.flatten [hostOps1, hostOps1_1, hostOps1_2]) W (Proc.devRef .tc main_v9)
      = meanOut (W (Proc.devRef .tc main_v3_0)) (W (Proc.devRef .tc main_v3_2)) := by
  simp only [hostOps1, hostOps1_1, hostOps1_2, List.flatten_cons, List.flatten_nil, List.append_nil, List.cons_append, List.nil_append]
  after_results
  rfl
theorem tail_v13 (W : Valuation τ sig (Elt Ideal)) :
    StableHlo.after (List.flatten [hostOps1, hostOps1_1, hostOps1_2]) W (Proc.devRef .tc main_v13)
      = meanOut (W (Proc.devRef .tc main_v3_1)) (W (Proc.devRef .tc main_v3_2)) := by
  simp only [hostOps1, hostOps1_1, hostOps1_2, List.flatten_cons, List.flatten_nil, List.append_nil, List.cons_append, List.nil_append]
  after_results
  rfl
theorem tail_v22 (W : Valuation τ sig (Elt Ideal)) :
    StableHlo.after (List.flatten [hostOps1, hostOps1_1, hostOps1_2]) W (Proc.devRef .tc main_v22)
      = idOut (W (Proc.devRef .tc main_v3_2)) := by
  simp only [hostOps1, hostOps1_1, hostOps1_2, List.flatten_cons, List.flatten_nil, List.append_nil, List.cons_append, List.nil_append]
  after_results
  rfl

/-! ### The results read at an index -/

/-- Moving the channel axis last and flattening (image, label): row `r`, channel `ch` reads (image, channel, label). -/
theorem toRows_apply {α : Type} (y : S4x16x512.Idx → α) (r : Fin 2048) (ch : Fin 16) :
    shapeCast S2048x16 (transpose S4x512x16 [0, 2, 1] y transposes_S4x16x512_S4x512x16_0_2_1) shapeCasts_S4x512x16_S2048x16 (ix2 r ch)
      = y (ix3 (imgOf r) ch (lblOf r)) := by
  refine (shapeCast_apply _ shapeCasts_S4x512x16_S2048x16 (ix2 r ch) (ix3 (imgOf r) (lblOf r) ch) ?_).trans ?_
  · rewrite [Shape.rowMajor_val_three, Shape.rowMajor_val_two]
    have hr := r.isLt; have hc := ch.isLt
    show (r.val / 512 * 512 + r.val % 512) * 16 + ch.val = r.val * 16 + ch.val
    omega
  exact transpose_apply [0, 2, 1] y transposes_S4x16x512_S4x512x16_0_2_1 (ix3 (imgOf r) (lblOf r) ch) (ix3 (imgOf r) ch (lblOf r))
    (fun b => match b with
      | ⟨0, _⟩ => rfl
      | ⟨1, _⟩ => rfl
      | ⟨2, _⟩ => rfl)

/-- The count spread over the channels reads the count at channel position 0. -/
theorem spread_apply {α : Type} (y : S4x1x512.Idx → α) (b : Fin 4) (ch : Fin 16) (j : Fin 512) :
    broadcastInDim S4x16x512 ![0, 1, 2] bcast_S4x1x512_S4x16x512_0_1_2 y (ix3 b ch j) = y (ix3 b (0 : Fin 1) j) :=
  broadcastInDim_apply _ bcast_S4x1x512_S4x16x512_0_1_2 y (ix3 b ch j) (ix3 b (0 : Fin 1) j) (fun a => match a with
    | ⟨0, _⟩ => by show b.val = if (4 : Nat) = 1 then 0 else b.val; rw [if_neg (by decide)]
    | ⟨1, _⟩ => by show 0 = if (1 : Nat) = 1 then 0 else ch.val; rw [if_pos rfl]
    | ⟨2, _⟩ => by show j.val = if (512 : Nat) = 1 then 0 else j.val; rw [if_neg (by decide)])

/-- The count floored at one, at an index. -/
theorem floor_apply (n : Vec Ideal S4x1x512 .f32) (k : S4x1x512.Idx) :
    maximumf n (broadcastInDim S4x1x512 ![] bcast_S_S4x1x512 (constant (F := Ideal) S_ .f32 0x3F800000#32)) k
      = max (n k) (Ideal.ofBits .f32 0x3F800000#32) := rfl

/-- A float result at row `r`, channel `ch`: the sum at (image, channel, label) over the label's count floored at one. -/
theorem meanOut_apply (s : Vec Ideal S4x16x512 .f32) (n : Vec Ideal S4x1x512 .f32) (r : Fin 2048) (ch : Fin 16) :
    meanOut s n (ix2 r ch) = meanAt (s (ix3 (imgOf r) ch (lblOf r))) (n (ix3 (imgOf r) (0 : Fin 1) (lblOf r))) := by
  unfold meanOut
  refine (toRows_apply _ r ch).trans ?_
  exact congrArg (Ideal.div (s (ix3 (imgOf r) ch (lblOf r))))
    ((spread_apply _ (imgOf r) ch (lblOf r)).trans (floor_apply n (ix3 (imgOf r) (0 : Fin 1) (lblOf r))))

/-- The count array with its unit axis dropped, at (image, label). -/
theorem dropUnit_apply {α : Type} (n : S4x1x512.Idx → α) (b : Fin 4) (j : Fin 512) :
    shapeCast S4x512 n shapeCasts_S4x1x512_S4x512 (ix2 b j) = n (ix3 b (0 : Fin 1) j) :=
  shapeCast_apply n shapeCasts_S4x1x512_S4x512 (ix2 b j) (ix3 b (0 : Fin 1) j)
    (by rewrite [Shape.rowMajor_val_three, Shape.rowMajor_val_two]
        show (b.val * 1 + 0) * 512 + j.val = b.val * 512 + j.val
        omega)

/-- The label ids spread over the images: at (image, label position `j`) the word `1 + j`. -/
theorem ids_apply (b : Fin 4) (j : Fin 512) :
    broadcastInDim S4x512 ![0, 1] bcast_S1x512_S4x512_0_1
        (broadcastInDim S1x512 ![1] bcast_S512_S1x512_1
          (addi (broadcastInDim S512 ![] bcast_S_S512 (constantI S_ 32 1#32)) (iotaInDim S512 32 0))) (ix2 b j)
      = IntOp.addi 1#32 (BitVec.ofNat 32 j.val) := by
  refine (broadcastInDim_apply _ bcast_S1x512_S4x512_0_1 _ (ix2 b j) (ix2 (0 : Fin 1) j) (fun a => match a with
    | ⟨0, _⟩ => by show 0 = if (1 : Nat) = 1 then 0 else b.val; rw [if_pos rfl]
    | ⟨1, _⟩ => by show j.val = if (512 : Nat) = 1 then 0 else j.val; rw [if_neg (by decide)])).trans ?_
  refine (broadcastInDim_apply _ bcast_S512_S1x512_1 _ (ix2 (0 : Fin 1) j) (ix1 j) (fun a => match a with
    | ⟨0, _⟩ => by show j.val = if (512 : Nat) = 1 then 0 else j.val; rw [if_neg (by decide)])).trans ?_
  rfl

/-- The integer result at row `r`: the label's id where its count is positive, else zero. -/
theorem idOut_apply (n : Vec Ideal S4x1x512 .f32) (r : Fin 2048) :
    idOut n (ix1 r) = idAt (n (ix3 (imgOf r) (0 : Fin 1) (lblOf r))) (lblOf r) := by
  unfold idOut
  refine (shapeCast_apply _ shapeCasts_S4x512_S2048 (ix1 r) (ix2 (imgOf r) (lblOf r)) ?_).trans ?_
  · rewrite [Shape.rowMajor_val_two, Shape.rowMajor_val_one]
    have hr := r.isLt
    show r.val / 512 * 512 + r.val % 512 = r.val
    omega
  exact congrArg₂ (fun x y => Scalar.select (FloatOps.cmpf (F := Ideal) .ogt x (Ideal.ofBits .f32 0x00000000#32)) y (0#32 : BitVec 32))
    (dropUnit_apply n (imgOf r) (lblOf r)) (ids_apply (imgOf r) (lblOf r))

/-! ## The run -/

/-- The contents the operations after the region start at: the region's arrays at their final contents, every other
    buffer as the region found it. -/
abbrev Wend (c : Dev nD) : Valuation τ sig (Elt Ideal) :=
  Pipeline.withArrays spec0 c (V0 m c) fun w => (dats (F := Ideal) m 0 c).arrAt w cfg0.N

/-- There the region's three outputs hold their final contents. -/
theorem Wend_3 (c : Dev nD) : Wend m c (Proc.devRef .tc main_v3_0) = fin3 m c :=
  Pipeline.withArrays_arr spec0 launch0.win.arr_inj c _ _ 3
theorem Wend_4 (c : Dev nD) : Wend m c (Proc.devRef .tc main_v3_1) = fin4 m c :=
  Pipeline.withArrays_arr spec0 launch0.win.arr_inj c _ _ 4
theorem Wend_5 (c : Dev nD) : Wend m c (Proc.devRef .tc main_v3_2) = fin5 m c :=
  Pipeline.withArrays_arr spec0 launch0.win.arr_inj c _ _ 5

/-- The program's float result from a sum array that is the spec's sums of `a`, and the counts. -/
theorem meanOut_eq (a : Vec Ideal S4x16x1024x1024 .f32) (l : Vec Ideal S4x1x1024x1024 .i32)
    (s : Vec Ideal S4x16x512 .f32) (n : Vec Ideal S4x1x512 .f32)
    (hs : ∀ (b : Fin 4) (ch : Fin 16) (j : Fin 512), s (ix3 b ch j) = sumOf a l b ch j)
    (hn : ∀ (b : Fin 4) (j : Fin 512), n (ix3 b (0 : Fin 1) j) = countOf l b j) :
    meanOut s n = meanRes a l := by
  funext i
  obtain ⟨r, ch, rfl⟩ : ∃ (r : Fin 2048) (ch : Fin 16), i = ix2 r ch := ⟨i 0, i 1, eq_ix2 i⟩
  refine (meanOut_apply s n r ch).trans ?_
  refine Eq.trans ?_ (meanRes_ix2 a l r ch).symm
  exact congrArg₂ meanAt (hs (imgOf r) ch (lblOf r)) (hn (imgOf r) (lblOf r))
theorem idOut_eq (l : Vec Ideal S4x1x1024x1024 .i32) (n : Vec Ideal S4x1x512 .f32)
    (hn : ∀ (b : Fin 4) (j : Fin 512), n (ix3 b (0 : Fin 1) j) = countOf l b j) :
    idOut n = idRes l := by
  funext i
  obtain ⟨r, rfl⟩ : ∃ r : Fin 2048, i = ix1 r := ⟨i 0, eq_ix1 i⟩
  refine (idOut_apply n r).trans ?_
  refine Eq.trans ?_ (idRes_ix1 l r).symm
  exact congrArg (fun x => idAt x (lblOf r)) (hn (imgOf r) (lblOf r))

/-- What the operations after the region leave in the three result buffers: the spec's functions of the arguments. -/
theorem res_v9 (c : Dev nD) :
    Pipeline.afterTail₀ cfgs (dats (F := Ideal) m) 0 (V0 m) [hostOps1, hostOps1_1, hostOps1_2] c main_v9
      = meanRes (a0 m c) (a2 m c) := by
  unfold Pipeline.afterTail₀
  refine (tail_v9 (Wend m c)).trans ?_
  rw [Wend_3, Wend_5]
  exact meanOut_eq (a0 m c) (a2 m c) (fin3 m c) (fin5 m c) (fin3_eq m c) (fin5_eq m c)
theorem res_v13 (c : Dev nD) :
    Pipeline.afterTail₀ cfgs (dats (F := Ideal) m) 0 (V0 m) [hostOps1, hostOps1_1, hostOps1_2] c main_v13
      = meanRes (a1 m c) (a2 m c) := by
  unfold Pipeline.afterTail₀
  refine (tail_v13 (Wend m c)).trans ?_
  rw [Wend_4, Wend_5]
  exact meanOut_eq (a1 m c) (a2 m c) (fin4 m c) (fin5 m c) (fin4_eq m c) (fin5_eq m c)
theorem res_v22 (c : Dev nD) :
    Pipeline.afterTail₀ cfgs (dats (F := Ideal) m) 0 (V0 m) [hostOps1, hostOps1_1, hostOps1_2] c main_v22
      = idRes (a2 m c) := by
  unfold Pipeline.afterTail₀
  refine (tail_v22 (Wend m c)).trans ?_
  rw [Wend_5]
  exact idOut_eq (a2 m c) (fin5 m c) (fin5_eq m c)

/-- Every weakly fair execution of the idealized kernel's program terminates with its three results at the spec's
    functions of the arguments, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = meanRes (a0 m c) (a2 m c)
      ∧ r.2.mem ((c.tc : Thread nD τ).loc main_v13) = meanRes (a1 m c) (a2 m c)
      ∧ r.2.mem ((c.tc : Thread nD τ).loc main_v22) = idRes (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v9 (Pipeline.mem_restRefs_of main_v9 (by decide) (by decide))).trans (res_v9 m c),
     ((h c).2 main_v13 (Pipeline.mem_restRefs_of main_v13 (by decide) (by decide))).trans (res_v13 m c),
     ((h c).2 main_v22 (Pipeline.mem_restRefs_of main_v22 (by decide) (by decide))).trans (res_v22 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Run

end
-- ==== Proof.lean ====
/-
  Per-label mean pooling of two float arrays over an instance mask, against its segment-sum reference.

  For every image `b`, label `j + 1` (`j < 512`) and channel `ch`, both programs compute the sum of the channel over the
  pixels whose label word is `j + 1`, the count of those pixels, the quotient of the sum by the count floored at one, and the
  label's id where the count is positive (`SegSum.lean`). The kernel accumulates, tile by tile of 32768 pixels, a product of
  the stacked channels with the 0/1 table "pixel q has label j + 1" (`KernelTile`, `KernelAcc`, `KernelArrays`, `KernelRun`);
  the reference scatters every pixel's row into slot `label + 513 * b` of 2052 segments and drops each image's slot 0
  (`RefScatter`, `RefIds`, `RefSums`, `RefValue`). The two agree because, with every label in 0..512, a pixel of image `b'`
  lands in slot `513 * b + j + 1` exactly when `b' = b` and its label is `j + 1`; only commutativity and associativity of
  the sums and `x * 0 = 0`, `x * 1 = x` on the extended reals are used, so of the precondition only the label range is needed.
  The idealization rewrote no operation, so `preserves` has nothing to show. The word-level and the idealized kernel's
  frames are the generated frame certificates; the reference's frame is its generated run with the results dropped.
-/
import proofs.«401834_j154618822672_2_alg».proof.Defs
import proofs.«401834_j154618822672_2_alg».proof.Proof.Gen.Kernel
import proofs.«401834_j154618822672_2_alg».proof.Proof.Gen.Kernel.Frame
import proofs.«401834_j154618822672_2_alg».proof.Proof.Gen.KernelIdeal
import proofs.«401834_j154618822672_2_alg».proof.Proof.Gen.KernelIdeal.Frame
import proofs.«401834_j154618822672_2_alg».proof.Proof.Gen.ReferenceIdeal
import proofs.«401834_j154618822672_2_alg».proof.Proof.Gen.Pre_finite_inputs
import proofs.«401834_j154618822672_2_alg».proof.Proof.RefReadP
import proofs.«401834_j154618822672_2_alg».proof.Proof.RefValue
import proofs.«401834_j154618822672_2_alg».proof.Proof.KernelRun
import Idealize.ShloMosaic.Adequacy
import Idealize.ShloMosaic.Init

noncomputable section

namespace Cert.Proof

open Idealize.ShloMosaic Idealize.ShloMosaic.TcCoe Idealize.SL.Sem Cert.SegMean

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's run ends with the arguments unchanged. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- Both programs end with the three results at the specification's functions of the arguments: the kernel by its run
    (`KernelRun`), the reference by its run read back stage by stage, its three sums being the specification's under the
    label range the precondition states. -/
theorem algebraic : Cert.algebraic_KernelIdeal_ReferenceIdeal := by
  intro m ρ m' ρ' hpre hagree
  have hr : ∀ c : Dev Cert.KernelIdeal.nD, ∀ i, 0 ≤ ((Cert.KernelIdeal.Run.a2 m c) i).toInt ∧ ((Cert.KernelIdeal.Run.a2 m c) i).toInt ≤ 512 :=
    fun c => Cert.ReferenceIdeal.Ids.range_of_pre _ _ _ (hpre c)
  refine ⟨fun c => meanRes (Cert.KernelIdeal.Run.a0 m c) (Cert.KernelIdeal.Run.a2 m c),
    fun c => meanRes (Cert.KernelIdeal.Run.a1 m c) (Cert.KernelIdeal.Run.a2 m c),
    fun c => idRes (Cert.KernelIdeal.Run.a2 m c), Cert.KernelIdeal.Run.run m ρ, ?_⟩
  refine (θ_run Cert.ReferenceIdeal.defs _ _).mono (fun _ h c => ?_) (Cert.ReferenceIdeal.ValueP.run (F := Ideal) m' ρ')
  obtain ⟨h33, h36, h44, ha0, ha1, ha2⟩ := h c
  refine ⟨?_, ?_, ?_, ha0, ha1, ha2⟩
  · rw [h33, Cert.ReferenceIdeal.ReadP.val_main_v33_eq, (hagree c).1, (hagree c).2.2]
    exact Cert.ReferenceIdeal.Results.v33_eq _ _ (hr c)
  · rw [h36, Cert.ReferenceIdeal.ReadP.val_main_v36_eq, (hagree c).2.1, (hagree c).2.2]
    exact Cert.ReferenceIdeal.Results.v36_eq _ _ (hr c)
  · rw [h44, Cert.ReferenceIdeal.ReadP.val_main_v44_eq, (hagree c).2.2]
    exact Cert.ReferenceIdeal.Results.v44_eq _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
